-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S_ : Shape := ⟨0, ![]⟩
abbrev S1x800000 : Shape := ⟨2, ![1, 800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S800000x50 : S_.BroadcastsInDim S800000x50 (![] : Fin 0 → Fin S800000x50.rank)
  reducesTo_S800000x50_S_d0_1 : S800000x50.ReducesTo [0, 1] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x800000_S1x800000_0_0 : S2x800000.Slices ![0, 0] S1x800000
  shapeCasts_S1x800000_S800000 : S1x800000.ShapeCasts S800000

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x800000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg1 : IVec S2x800000 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x800000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S800000x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S800000x50 .f32 := Host.absf main_arg3
  let main_cst_2 : FVec F S_ .f32 := constant S_ .f32 0x7F800000#32
  let main_v10 : FVec F S800000x50 .f32 := broadcastInDim S800000x50 ![] bcast_S_S800000x50 main_cst_2
  let main_v11 : IVec S800000x50 1 := cmpf .olt main_v9 main_v10
  let main_c_3 : IVec S_ 1 := constantI S_ 1 1#1
  let main_v12 : IVec S_ 1 := (fun x v => Host.reduce IntOp.andi x v reducesTo_S800000x50_S_d0_1 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg1 main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S1x800000 : Shape := ⟨2, ![1, 800000]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S6400x50 : Shape := ⟨2, ![6400, 50]⟩
abbrev S6400x1 : Shape := ⟨2, ![6400, 1]⟩
abbrev S6400x128 : Shape := ⟨2, ![6400, 128]⟩

abbrev nBuf : Space → Nat
  | .hbm => 52
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x128, .f32⟩
  | .hbm, ⟨37, _⟩ => ⟨S800000x128, .i1⟩
  | .hbm, ⟨38, _⟩ => ⟨S_, .f32⟩
  | .hbm, ⟨39, _⟩ => ⟨S800000x128, .f32⟩
  | .hbm, ⟨40, _⟩ => ⟨S800000x128, .f32⟩
  | .hbm, ⟨41, _⟩ => ⟨S800000x1, .f32⟩
  | .hbm, ⟨42, _⟩ => ⟨S1x128, .f32⟩
  | .hbm, ⟨43, _⟩ => ⟨S1x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x128, .f32⟩
  | .hbm, ⟨50, _⟩ => ⟨S1x128, .f32⟩
  | .hbm, ⟨51, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S6400x50, .f32⟩
  | .local _ .vmem, ⟨6, _⟩ => ⟨S6400x50, .f32⟩
  | .local _ .vmem, ⟨7, _⟩ => ⟨S6400x1, .f32⟩
  | .local _ .vmem, ⟨8, _⟩ => ⟨S6400x1, .f32⟩
  | .local _ .vmem, ⟨9, _⟩ => ⟨S6400x128, .f32⟩
  | .local _ .vmem, ⟨10, _⟩ => ⟨S6400x128, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S6400x128, .f32⟩
  | .local _ .vmem, ⟨16, _⟩ => ⟨S6400x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_cst : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S800000_S800000x1 : S800000.ShapeCasts S800000x1
  shapeCasts_S128_S1x128 : S128.ShapeCasts S1x128
  inb_S6400x50_S6400x50_0_0 : ∀ a, (![0, 0] : Fin 2 → Nat) a + S6400x50.size a ≤ S6400x50.size a
  h_S6400x50 : 0 < S6400x50.numel
  inb_S50x128_S50x128_0_0 : ∀ a, (![0, 0] : Fin 2 → Nat) a + S50x128.size a ≤ S50x128.size a
  h_S50x128 : 0 < S50x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  dot_S6400x50_S50x128_S6400x128_1_0_0_1_n_n_wf : DotDims.WF S6400x50 S50x128 S6400x128 [1] [0] [0] [1] [] []
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x50.size a ≤ S800000x50.size a
  hwx1_0 : ∀ i : grid1.Coords, EltTy.bits .f32 = 32 ∨ (Rect.block (s := S800000x50) S6400x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S800000x1.size a
  hwx1_1 : ∀ i : grid1.Coords, EltTy.bits .f32 = 32 ∨ (Rect.block (s := S800000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S800000x128.size a
  hwx1_2 : ∀ i : grid1.Coords, EltTy.bits .f32 = 32 ∨ (Rect.block (s := S800000x128) S6400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S800000x128.size a
  hwx1_7 : ∀ i : grid1.Coords, EltTy.bits .f32 = 32 ∨ (Rect.block (s := S800000x128) S6400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x50_S50x128_S6400x128_1_0_0_1_n_n : DotDims S6400x50 S50x128 S6400x128 where
  lhsContracting := [1]
  rhsContracting := [0]
  lhsNonContracting := [0]
  rhsNonContracting := [1]
  lhsBatch := []
  rhsBatch := []
  wf := dot_S6400x50_S50x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S6400x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v12) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S800000x50 : Shape := ⟨2, ![800000, 50]⟩
abbrev S50x128 : Shape := ⟨2, ![50, 128]⟩
abbrev S128 : Shape := ⟨1, ![128]⟩
abbrev S128x128 : Shape := ⟨2, ![128, 128]⟩
abbrev S_ : Shape := ⟨0, ![]⟩
abbrev S800000x128 : Shape := ⟨2, ![800000, 128]⟩
abbrev S1x128 : Shape := ⟨2, ![1, 128]⟩
abbrev S800000x1 : Shape := ⟨2, ![800000, 1]⟩
abbrev S1x800000 : Shape := ⟨2, ![1, 800000]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S800000x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S800000, .f32⟩
  | .hbm, ⟨15, _⟩ => ⟨S800000, .f32⟩
  | .hbm, ⟨16, _⟩ => ⟨S800000, .f32⟩
  | .hbm, ⟨17, _⟩ => ⟨S_, .f32⟩
  | .hbm, ⟨18, _⟩ => ⟨S800000, .f32⟩
  | .hbm, ⟨19, _⟩ => ⟨S800000, .f32⟩
  | .hbm, ⟨20, _⟩ => ⟨S_, .f32⟩
  | .hbm, ⟨21, _⟩ => ⟨S800000, .f32⟩
  | .hbm, ⟨22, _⟩ => ⟨S800000, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S800000x128, .f32⟩
  | .hbm, ⟨31, _⟩ => ⟨S800000x128, .f32⟩
  | .hbm, ⟨32, _⟩ => ⟨S800000x128, .i1⟩
  | .hbm, ⟨33, _⟩ => ⟨S800000x128, .f32⟩
  | .hbm, ⟨34, _⟩ => ⟨S800000x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S800000x1, .f32⟩
  | .hbm, ⟨49, _⟩ => ⟨S800000x128, .f32⟩
  | .hbm, ⟨50, _⟩ => ⟨S800000x128, .f32⟩
  | .hbm, ⟨51, _⟩ => ⟨S50000x128, .f32⟩
  | .hbm, ⟨52, _⟩ => ⟨S1x800000, .i32⟩
  | .hbm, ⟨53, _⟩ => ⟨S800000, .i32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S1x800000, .i32⟩
  | .hbm, ⟨65, _⟩ => ⟨S800000, .i32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .i1⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v11 : Ref sig .tc := ⟨.hbm, 40, rfl⟩
abbrev main_cst_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_v24 : Ref sig .tc := ⟨.hbm, 55, rfl⟩
abbrev main_v25 : Ref sig .tc := ⟨.hbm, 56, rfl⟩
abbrev main_c_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_4 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v41 : Ref sig .tc := ⟨.hbm, 87, rfl⟩
abbrev main_cst_5 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x50_S50x128_S800000x128_1_0_0_1_n_n_wf : DotDims.WF S800000x50 S50x128 S800000x128 [1] [0] [0] [1] [] []
  dot_S800000x128_S128x128_S800000x128_1_0_0_1_n_n_wf : DotDims.WF S800000x128 S128x128 S800000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S800000x50_S50x128_S800000x128_1_0_0_1_n_n : DotDims S800000x50 S50x128 S800000x128 where
  lhsContracting := [1]
  rhsContracting := [0]
  lhsNonContracting := [0]
  rhsNonContracting := [1]
  lhsBatch := []
  rhsBatch := []
  wf := dot_S800000x50_S50x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  The function that both programs compute, entry by entry, over the extended reals.

  A continuous-filter convolution block on a graph of 50000 nodes and 800000 edges with 128 features:
    h      = x · lin1_w                                            (node projection, [50000, 128])
    W(e)   = (ssp (edge_attr(e) · w1 + b1) · w2 + b2) · C(d(e))    (edge filter, [800000, 128])
    C(d)   = ½ · (cos (d · π/10) + 1)                              (cosine cutoff of the edge length)
    msg(e) = h(src e) ⊙ W(e)                                       (message of edge e)
    agg(p) = Σ over the edges e with dst e = p of msg(e)           (scatter-add onto the target nodes)
    out(p) = ssp (agg(p) · lin2_w + lin2_b) · lin_w + lin_b
  where ssp z = softplus z − ln 2 in the numerically stable spelling max(z, 0) + log(1 + e^(−|z|)), the constants being
  the single-precision words the programs carry. Sums over the 128 (or 50) features are plain finite sums of
  extended reals: no order of summation and no rounding enters.
-/
import Idealize.ShloMosaic.PureOps.Ideal
import Idealize.ShloMosaic.Lib.ValueIdx
import proofs.«424310_j41300405518873_1_alg».proof.Proof.LibRowOps

noncomputable section

open scoped BigOperators

namespace Cert.Spec

open Idealize.ShloMosaic Idealize.ShloMosaic.ValueIdx

/-! ## The constants, as the extended reals their single-precision words denote -/

/-- The word of `0.0`. -/
def zero : EReal := Ideal.ofBits .f32 0x00000000#32
/-- The word nearest `ln 2`. -/
def ln2w : EReal := Ideal.ofBits .f32 0x3F317218#32
/-- The word nearest `π / 10`. -/
def piTenth : EReal := Ideal.ofBits .f32 0x3EA0D97C#32
/-- The word of `1.0`. -/
def one : EReal := Ideal.ofBits .f32 0x3F800000#32
/-- The word of `0.5`. -/
def half : EReal := Ideal.ofBits .f32 0x3F000000#32

/-! ## The scalar functions -/

/-- Shifted softplus: `max(z, 0) + log(1 + e^(−|z − 0|)) − ln 2`, the absolute value spelt `max y (−y)`. -/
def ssp (z : EReal) : EReal :=
  (max z zero + Ideal.log1p (Ideal.exp (-(max (z - zero) (-(z - zero)))))) - ln2w

/-- The cosine cutoff of an edge length. -/
def cutoff (d : EReal) : EReal := half * (Ideal.cos (d * piTenth) + one)

/-! ## The stages, entry by entry -/

/-- The node projection `x · lin1_w` at `(p, q)`. -/
def proj (x : (⟨2, ![50000, 128]⟩ : Shape).Idx → EReal) (lin1 : (⟨2, ![128, 128]⟩ : Shape).Idx → EReal)
    (p : Fin 50000) (q : Fin 128) : EReal :=
  ∑ k : Fin 128, x (ix2 p k) * lin1 (ix2 k q)

/-- The hidden layer of the filter network at edge `e`, feature `k` (`b1` the bias row). -/
def hidden (ea : (⟨2, ![800000, 50]⟩ : Shape).Idx → EReal) (w1 : (⟨2, ![50, 128]⟩ : Shape).Idx → EReal)
    (b1 : Fin 128 → EReal) (e : Fin 800000) (k : Fin 128) : EReal :=
  ssp ((∑ j : Fin 50, ea (ix2 e j) * w1 (ix2 j k)) + b1 k)

/-- The filter network's output at edge `e`, feature `q`, before the cutoff. -/
def filt (ea : (⟨2, ![800000, 50]⟩ : Shape).Idx → EReal) (w1 : (⟨2, ![50, 128]⟩ : Shape).Idx → EReal)
    (b1 : Fin 128 → EReal) (w2 : (⟨2, ![128, 128]⟩ : Shape).Idx → EReal) (b2 : Fin 128 → EReal)
    (e : Fin 800000) (q : Fin 128) : EReal :=
  (∑ k : Fin 128, hidden ea w1 b1 e k * w2 (ix2 k q)) + b2 q

/-- One entry of a message: the projected source node's entry `hs` times the filter entry `f` times the cutoff of the
    edge length `d`. -/
def edge (hs f d : EReal) : EReal := hs * (f * cutoff d)

/-- The source node of edge `e`: row 0 of the edge index, read signed and clamped into the node range. -/
def srcRow (ei : (⟨2, ![2, 800000]⟩ : Shape).Idx → BitVec 32) (e : Fin 800000) : Fin 50000 :=
  RowOps.clampRow 50000 (by decide) (ei (ix2 0 e))

/-- Every source node number is a node: row 0 of the edge index, read signed, lies in `[0, 50000)`. -/
def InRange (ei : (⟨2, ![2, 800000]⟩ : Shape).Idx → BitVec 32) : Prop :=
  ∀ e : Fin 800000, 0 ≤ (ei (ix2 0 e)).toInt ∧ (ei (ix2 0 e)).toInt < 50000

/-- The scatter-add of per-edge rows `u` onto the nodes at `(p, j)`: zero plus the rows of the edges whose target (row 1
    of the edge index, read signed) is `p`. -/
def scat (ei : (⟨2, ![2, 800000]⟩ : Shape).Idx → BitVec 32) (u : Fin 800000 → Fin 128 → EReal) (p : Fin 50000)
    (j : Fin 128) : EReal :=
  zero + ∑ e ∈ Finset.univ.filter (fun e : Fin 800000 => (ei (ix2 1 e)).toInt = (p.val : Int)), u e j

/-- The message of edge `e` at feature `q`. -/
def msg (x : (⟨2, ![50000, 128]⟩ : Shape).Idx → EReal) (ei : (⟨2, ![2, 800000]⟩ : Shape).Idx → BitVec 32)
    (ew : (⟨1, ![800000]⟩ : Shape).Idx → EReal) (ea : (⟨2, ![800000, 50]⟩ : Shape).Idx → EReal)
    (w1 : (⟨2, ![50, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (lin1 : (⟨2, ![128, 128]⟩ : Shape).Idx → EReal) (e : Fin 800000) (q : Fin 128) : EReal :=
  edge (proj x lin1 (srcRow ei e) q) (filt ea w1 (fun k => b1 (ix1 k)) w2 (fun k => b2 (ix1 k)) e q) (ew (ix1 e))

/-- The aggregate at node `p`, feature `j`: the scatter-add of the messages. -/
def agg (x : (⟨2, ![50000, 128]⟩ : Shape).Idx → EReal) (ei : (⟨2, ![2, 800000]⟩ : Shape).Idx → BitVec 32)
    (ew : (⟨1, ![800000]⟩ : Shape).Idx → EReal) (ea : (⟨2, ![800000, 50]⟩ : Shape).Idx → EReal)
    (w1 : (⟨2, ![50, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (lin1 : (⟨2, ![128, 128]⟩ : Shape).Idx → EReal) (p : Fin 50000) (j : Fin 128) : EReal :=
  scat ei (msg x ei ew ea w1 b1 w2 b2 lin1) p j

/-- The node update on an aggregate `a`: `ssp (a(p) · lin2_w + lin2_b) · lin_w + lin_b` at `(p, q)` (`lin2b`, `linb` the
    bias rows). -/
def node (a : Fin 50000 → Fin 128 → EReal) (lin2 : (⟨2, ![128, 128]⟩ : Shape).Idx → EReal) (lin2b : Fin 128 → EReal)
    (lin : (⟨2, ![128, 128]⟩ : Shape).Idx → EReal) (linb : Fin 128 → EReal) (p : Fin 50000) (q : Fin 128) : EReal :=
  (∑ k : Fin 128, ssp ((∑ j : Fin 128, a p j * lin2 (ix2 j k)) + lin2b k) * lin (ix2 k q)) + linb q

/-- The whole block's result at `(p, q)` as a function of the thirteen argument arrays. -/
def out (x : (⟨2, ![50000, 128]⟩ : Shape).Idx → EReal) (ei : (⟨2, ![2, 800000]⟩ : Shape).Idx → BitVec 32)
    (ew : (⟨1, ![800000]⟩ : Shape).Idx → EReal) (ea : (⟨2, ![800000, 50]⟩ : Shape).Idx → EReal)
    (w1 : (⟨2, ![50, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (lin1 : (⟨2, ![128, 128]⟩ : Shape).Idx → EReal) (lin2 : (⟨2, ![128, 128]⟩ : Shape).Idx → EReal)
    (lin2b : (⟨1, ![128]⟩ : Shape).Idx → EReal) (lin : (⟨2, ![128, 128]⟩ : Shape).Idx → EReal)
    (linb : (⟨1, ![128]⟩ : Shape).Idx → EReal) (p : Fin 50000) (q : Fin 128) : EReal :=
  node (agg x ei ew ea w1 b1 w2 b2 lin1) lin2 (fun k => lin2b (ix1 k)) lin (fun k => linb (ix1 k)) p q

end Cert.Spec

end
-- ==== Proof.LibMatRows.lean ====
/-
  A product of two matrices read at an entry, over the extended reals.

  For `l : [M, K]` and `r : [K, N]` the matrix unit's product into a zero accumulator and the host's `dot_general`
  (contracting the second axis of `l` with the first of `r`, no batch axes) are both, at entry `(p, q)`, the plain sum
  `Σ_k l(p, k) · r(k, q)`.
-/
import Idealize.ShloMosaic.PureOps.Ideal.Laws
import Idealize.ShloMosaic.Lib.ValueIdx

noncomputable section

open scoped BigOperators

namespace MatRows

open Idealize.ShloMosaic Idealize.ShloMosaic.ValueIdx

/-- The dimension numbers of a plain matrix product `[M, K] × [K, N] → [M, N]`. -/
abbrev dims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-! ## The operand indices of the plain product, axis by axis

  At output entry `i` and contraction position `q` the left operand is read at row `i 0`, column `q`, the right operand at
  row `q`, column `i 1`. -/

private theorem lhs_0 {M K N : Nat}
    (wf : DotDims.WF ⟨2, ![M, K]⟩ ⟨2, ![K, N]⟩ ⟨2, ![M, N]⟩ [1] [0] [0] [1] [] [])
    (i : (⟨2, ![M, N]⟩ : Shape).Idx) (q : (dims M K N wf).contr.Idx) :
    ((dims M K N wf).lhsIdx i q 0).val = (i 0).val := by
  unfold DotDims.lhsIdx
  rw [dif_neg (show ¬(0 : Fin (⟨2, ![M, K]⟩ : Shape).rank) ∈ (dims M K N wf).lhsBatch from List.not_mem_nil),
    dif_pos (show (0 : Fin (⟨2, ![M, K]⟩ : Shape).rank) ∈ (dims M K N wf).lhsNonContracting from List.mem_singleton.mpr rfl)]
  rfl

private theorem lhs_1 {M K N : Nat}
    (wf : DotDims.WF ⟨2, ![M, K]⟩ ⟨2, ![K, N]⟩ ⟨2, ![M, N]⟩ [1] [0] [0] [1] [] [])
    (i : (⟨2, ![M, N]⟩ : Shape).Idx) (q : (dims M K N wf).contr.Idx) :
    ((dims M K N wf).lhsIdx i q 1).val = (q ⟨0, Nat.one_pos⟩).val :=
  (dims M K N wf).lhsIdx_val_of_single rfl i q

private theorem rhs_0 {M K N : Nat}
    (wf : DotDims.WF ⟨2, ![M, K]⟩ ⟨2, ![K, N]⟩ ⟨2, ![M, N]⟩ [1] [0] [0] [1] [] [])
    (i : (⟨2, ![M, N]⟩ : Shape).Idx) (q : (dims M K N wf).contr.Idx) :
    ((dims M K N wf).rhsIdx i q 0).val = (q ⟨0, Nat.one_pos⟩).val :=
  (dims M K N wf).rhsIdx_val_of_single rfl i q

private theorem rhs_1 {M K N : Nat}
    (wf : DotDims.WF ⟨2, ![M, K]⟩ ⟨2, ![K, N]⟩ ⟨2, ![M, N]⟩ [1] [0] [0] [1] [] [])
    (i : (⟨2, ![M, N]⟩ : Shape).Idx) (q : (dims M K N wf).contr.Idx) :
    ((dims M K N wf).rhsIdx i q 1).val = (i 1).val := by
  unfold DotDims.rhsIdx
  rw [dif_neg (show ¬(1 : Fin (⟨2, ![K, N]⟩ : Shape).rank) ∈ (dims M K N wf).rhsBatch from List.not_mem_nil),
    dif_pos (show (1 : Fin (⟨2, ![K, N]⟩ : Shape).rank) ∈ (dims M K N wf).rhsNonContracting from List.mem_singleton.mpr rfl)]
  rfl

/-- The contraction sum of the plain product re-indexed by the one contracted coordinate. -/
private theorem sum_contr {M K N : Nat} {φ₁ φ₂ : FTy}
    (wf : DotDims.WF ⟨2, ![M, K]⟩ ⟨2, ![K, N]⟩ ⟨2, ![M, N]⟩ [1] [0] [0] [1] [] [])
    (l : FVec Ideal ⟨2, ![M, K]⟩ φ₁) (r : FVec Ideal ⟨2, ![K, N]⟩ φ₂) (p : Fin M) (q : Fin N) :
    (∑ k : (dims M K N wf).contr.Idx,
        l ((dims M K N wf).lhsIdx (ix2 p q) k) * r ((dims M K N wf).rhsIdx (ix2 p q) k))
      = ∑ k : Fin K, l (ix2 p k) * r (ix2 k q) := by
  rw [← Equiv.sum_comp (ValueIdx.contrEquiv1 (dims M K N wf) K rfl rfl).symm]
  refine Finset.sum_congr rfl fun k _ => ?_
  have hk := ValueIdx.contrEquiv1_symm_val (dims M K N wf) K rfl rfl k
  have el : (dims M K N wf).lhsIdx (ix2 p q) ((ValueIdx.contrEquiv1 (dims M K N wf) K rfl rfl).symm k) = ix2 p k :=
    funext fun a => Fin.ext (by
      match a with
      | ⟨0, _⟩ => exact lhs_0 wf _ _
      | ⟨1, _⟩ => exact (lhs_1 wf _ _).trans hk)
  have er : (dims M K N wf).rhsIdx (ix2 p q) ((ValueIdx.contrEquiv1 (dims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The matrix unit's product into the zero splat, at entry `(p, q)`. -/
theorem matmul_zero_apply {M K N : Nat} {φ₁ φ₂ : FTy}
    (wf : DotDims.WF ⟨2, ![M, K]⟩ ⟨2, ![K, N]⟩ ⟨2, ![M, N]⟩ [1] [0] [0] [1] [] []) (prec : Option ContractPrecision)
    (l : FVec Ideal ⟨2, ![M, K]⟩ φ₁) (r : FVec Ideal ⟨2, ![K, N]⟩ φ₂) (p : Fin M) (q : Fin N) :
    matmul (F := Ideal) (dims M K N wf) prec l r (constant ⟨2, ![M, N]⟩ .f32 0x00000000#32) (ix2 p q)
      = ∑ k : Fin K, l (ix2 p k) * r (ix2 k q) := by
  simp only [matmul]
  rw [Ideal.matmul_constant_zero_apply]
  exact sum_contr wf l r p q

/-- The host's `dot_general`, at entry `(p, q)`. -/
theorem dotGeneral_apply {M K N : Nat} {φ₁ φ₂ : FTy}
    (wf : DotDims.WF ⟨2, ![M, K]⟩ ⟨2, ![K, N]⟩ ⟨2, ![M, N]⟩ [1] [0] [0] [1] [] []) (prec : Option ContractPrecision)
    (l : FVec Ideal ⟨2, ![M, K]⟩ φ₁) (r : FVec Ideal ⟨2, ![K, N]⟩ φ₂) (p : Fin M) (q : Fin N) :
    Host.dotGeneral (F := Ideal) (dims M K N wf) prec l r (ix2 p q) = ∑ k : Fin K, l (ix2 p k) * r (ix2 k q) := by
  simp only [Host.dotGeneral]
  rw [Ideal.dotGeneral_apply]
  exact sum_contr wf l r p q

end MatRows

end
-- ==== Proof.Region0.lean ====
/-
  The first launch: the node projection.

  Ten grid points, point t taking rows 5000·t … 5000·t + 4999 of x and the whole weight matrix and writing the same rows
  of the result. So the result array ends holding, at (p, q), the product of row p of x with column q of the weights.
-/
import proofs.«424310_j41300405518873_1_alg».proof.Proof.Gen.KernelIdeal.Frame
import proofs.«424310_j41300405518873_1_alg».proof.Proof.Spec
import proofs.«424310_j41300405518873_1_alg».proof.Proof.LibMatRows
import Idealize.ShloMosaic.Lib.Pipeline.Value

noncomputable section

open scoped BigOperators

namespace Cert.KernelIdeal.Region0

open Cert.KernelIdeal Cert.KernelIdeal.Gen Idealize.ShloMosaic Idealize.ShloMosaic.ValueIdx Idealize.ShloMosaic.TcCoe Idealize.SL.Sem

open Idealize.ShloMosaic.Pipeline (Dat)

variable (V : (c : Dev nD) → (b : Ref sig .tc) → Buf (Elt Ideal) ((c : Thread nD τ).loc b))

/-! ## The projected array as one function of the features and the weights -/

/-- Entry `i` of the projection: row `i 0` of `x` against column `i 1` of the weights. -/
abbrev projArr (x : (⟨2, ![50000, 128]⟩ : Shape).Idx → EReal) (w : (⟨2, ![128, 128]⟩ : Shape).Idx → EReal) :
    (⟨2, ![50000, 128]⟩ : Shape).Idx → EReal := fun i => Cert.Spec.proj x w (i 0) (i 1)

/-- The stores and loads of the body sit at zero offsets. -/
theorem zeroOff : (![0, 0] : Fin 2 → Nat) = fun _ => 0 := funext fun a => by fin_cases a <;> rfl

/-! ## The body's product at an entry -/

/-- Entry `(p, q)` of the body's product of a block of rows `x0` with the weights `x1`: the narrowing of the operands is
    the identity on the extended reals, the accumulator is the zero splat, so it is the plain sum over the 128 features. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (MatRows.matmul_zero_apply Facts₀.dot_S5000x128_S128x128_S5000x128_1_0_0_1_n_n_wf none _ _ p q).trans ?_
  rfl

/-- The same entry when the block of rows `x0` is read off the array `X` at row `r` (its row `p` is `X`'s row `r`) and
    `x1` is the weight array `W`: the projection's entry `(r, q)`. -/
theorem pay_entry (X : (⟨2, ![50000, 128]⟩ : Shape).Idx → EReal) (W : (⟨2, ![128, 128]⟩ : Shape).Idx → EReal)
    (x0 : Vec Ideal S5000x128 .f32) (x1 : Vec Ideal S128x128 .f32) (p : Fin 5000) (q : Fin 128) (r : Fin 50000)
    (h0 : ∀ k : Fin 128, x0 (ix2 p k) = X (ix2 r k)) (h1 : ∀ k : Fin 128, x1 (ix2 k q) = W (ix2 k q)) :
    k0_pay1 x0 x1 (ix2 p q) = Cert.Spec.proj X W r q := by
  rw [pay_apply]
  unfold Cert.Spec.proj
  exact Finset.sum_congr rfl fun k _ => by rw [h0 k, h1 k]

/-! ## From the blocks to the array -/

/-- The windows' block indices over the ten grid points: the block of rows of `x` moves with the result's block, the
    weights' block stays at the origin. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block of rows of the result is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the projected array. -/
theorem flushed_eq (c : Dev nD) (t : Fin cfg0.N) :
    (dat0 V c).flushed 2 t
      = ((cfg0.win 2).blk t).view.read (Elt Ideal) (projArr (V c main_arg0) (V c main_arg8)) := by
  show (cfg0.win 2).cut (grid0.coords t) ((dat0 V c).after 2 t) = _
  rw [after0_2]
  unfold out0_2
  rw [View.canon_unit_zero zeroOff]
  simp only [View.ld_unit_zero (S := S5000x128) zeroOff, View.ld_unit_zero (S := S128x128) zeroOff]
  obtain ⟨e0, e1, e2, e3, e4, e5⟩ := idx_facts t
  funext j
  have hj0 : (j 0).val < 5000 := (j 0).isLt
  have hj1 : (j 1).val < 128 := (j 1).isLt
  have hr : win0_2.index t (0 : Fin 2) * 5000 + (j 0).val < 50000 := by omega
  -- the entry inside the block, and the entry of the array it is written to
  have hj : ((cfg0.win 2).xinj (grid0.coords t) j : S5000x128.Idx)
      = ix2 (⟨(j 0).val, hj0⟩ : Fin 5000) (⟨(j 1).val, hj1⟩ : Fin 128) :=
    funext fun a => by match a with | ⟨0, _⟩ => rfl | ⟨1, _⟩ => rfl
  have hi : (((cfg0.win 2).blk t).view.emb j : S50000x128.Idx)
      = ix2 (⟨win0_2.index t (0 : Fin 2) * 5000 + (j 0).val, hr⟩ : Fin 50000) (⟨(j 1).val, hj1⟩ : Fin 128) :=
    funext fun a => Fin.ext (by
      match a with
      | ⟨0, _⟩ => show win0_2.index t (0 : Fin 2) * 5000 + 1 * (j 0).val = win0_2.index t (0 : Fin 2) * 5000 + (j 0).val; omega
      | ⟨1, _⟩ => show win0_2.index t (1 : Fin 2) * 128 + 1 * (j 1).val = (j 1).val; omega)
  -- row `p` of the block of `x` is row `5000 · t + p` of `x`
  have h0 : ∀ k : Fin 128, iblk0 V c 0 t (ix2 (⟨(j 0).val, hj0⟩ : Fin 5000) k)
      = V c main_arg0 (ix2 (⟨win0_2.index t (0 : Fin 2) * 5000 + (j 0).val, hr⟩ : Fin 50000) k) := fun k => by
    show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + (j 0).val; omega
    | ⟨1, _⟩ => show win0_0.index t (1 : Fin 2) * 128 + 1 * k.val = k.val; omega
  -- the block of the weights is the weights
  have h1 : ∀ k : Fin 128, iblk0 V c 1 t (ix2 k (⟨(j 1).val, hj1⟩ : Fin 128))
      = V c main_arg8 (ix2 k (⟨(j 1).val, hj1⟩ : Fin 128)) := fun k => by
    show V c main_arg8 (((cfg0.win 1).blk t).view.emb (ix2 k (⟨(j 1).val, hj1⟩ : Fin 128))) = _
    refine congrArg (V c main_arg8) (funext fun a => Fin.ext ?_)
    match a with
    | ⟨0, _⟩ => show win0_1.index t (0 : Fin 2) * 128 + 1 * k.val = k.val; omega
    | ⟨1, _⟩ => show win0_1.index t (1 : Fin 2) * 128 + 1 * (j 1).val = (j 1).val; omega
  refine (congrArg (k0_pay1 (iblk0 V c 0 t) (iblk0 V c 1 t)) hj).trans ?_
  refine Eq.trans ?_ (congrArg (projArr (V c main_arg0) (V c main_arg8)) hi).symm
  exact pay_entry (V c main_arg0) (V c main_arg8) (iblk0 V c 0 t) (iblk0 V c 1 t) _ _ _ h0 h1

/-- An entry of the array lies in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every entry of the result is in some point's block: row `r` is in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The projected array after the launch, entry by entry. -/
theorem final (c : Dev nD) (p : Fin 50000) (q : Fin 128) :
    (dat0 V c).arrAt 2 cfg0.N (ix2 p q) = Cert.Spec.proj (V c main_arg0) (V c main_arg8) p q := by
  exact congrFun ((dat0 V c).arrAt_eq_of_cover 2 (projArr (V c main_arg0) (V c main_arg8))
    (fun t _ => flushed_eq V c t) cover) (ix2 p q)

end Cert.KernelIdeal.Region0

end
-- ==== Proof.Region1.lean ====
/-
  The second launch: the edge filter network, the cutoff and the product with the gathered source rows.

  125 grid points, point t taking edges 6400·t … 6400·t + 6399 of every per-edge operand and the whole weights and biases.
  Every operation of the body acts on an edge's row alone, so the result array ends holding, at (e, q), the gathered
  entry times the filter entry times the cutoff of the edge's length.
-/
import proofs.«424310_j41300405518873_1_alg».proof.Proof.Gen.KernelIdeal.Frame
import proofs.«424310_j41300405518873_1_alg».proof.Proof.Spec
import proofs.«424310_j41300405518873_1_alg».proof.Proof.LibMatRows
import Idealize.ShloMosaic.Lib.ValueLayout
import Idealize.ShloMosaic.Lib.Pipeline.Value
import Idealize.ShloMosaic.PureOps.Ideal.Laws

noncomputable section

open scoped BigOperators

namespace Cert.KernelIdeal.Region1

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-- A column [a, 1] broadcast to [a, b] reads, at (p, c), the operand's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The softplus chain of the body at one entry: the comparison of a number with itself for being unordered fails,
    so the stable spelling is selected, and zero minus a number is its negative. -/
private theorem softplus_entry (z : EReal) :
    Scalar.select (FloatOps.cmpf (F := Ideal) (φ := .f32) .one (z - Cert.Spec.zero) (z - Cert.Spec.zero)) (z + Cert.Spec.zero)
        (max z Cert.Spec.zero + Ideal.log1p (Ideal.exp (Cert.Spec.zero - max (z - Cert.Spec.zero) (-(z - Cert.Spec.zero)))))
      - Cert.Spec.ln2w = Cert.Spec.ssp z := by
  have hc : FloatOps.cmpf (F := Ideal) (φ := .f32) .one (z - Cert.Spec.zero) (z - Cert.Spec.zero) = 0#1 := by
    rw [Ideal.cmpf_def]
    simp [Ideal.cmp]
  rw [hc, select_zero]
  unfold Cert.Spec.ssp
  have h0 : Cert.Spec.zero - max (z - Cert.Spec.zero) (-(z - Cert.Spec.zero)) = -(max (z - Cert.Spec.zero) (-(z - Cert.Spec.zero))) := by
    unfold Cert.Spec.zero
    rw [Ideal.ofBits_zero_f32, zero_sub]
  rw [h0]

/-! ## The body's arithmetic, stage by stage -/

/-- The first layer before its activation: edge attributes times the first weights, plus the first bias row. -/
private def layer1 (x0 : Vec Ideal S6400x50 .f32) (x3 : Vec Ideal S50x128 .f32) (x4 : Vec Ideal S1x128 .f32) :
    FVec Ideal S6400x128 .f32 :=
  addf (matmul dot_S6400x50_S50x128_S6400x128_1_0_0_1_n_n none (truncf .bf16 x0 bitsLt_bf16_f32) (truncf .bf16 x3 bitsLt_bf16_f32)
      (constant S6400x128 .f32 0x00000000#32))
    (broadcastTo S6400x128 (shapeCast S1x128 x4 shapeCasts_S1x128_S1x128) broadcasts_S1x128_S6400x128)

/-- The shifted softplus of a block, in the body's operations. -/
private def activate (v8 : FVec Ideal S6400x128 .f32) : FVec Ideal S6400x128 .f32 :=
  subf (select (cmpf .one (subf v8 (broadcast S6400x128 (Scalar.ofBits .f32 0x00000000#32))) (subf v8 (broadcast S6400x128 (Scalar.ofBits .f32 0x00000000#32))))
      (addf v8 (broadcast S6400x128 (Scalar.ofBits .f32 0x00000000#32)))
      (addf (maximumf v8 (broadcast S6400x128 (Scalar.ofBits .f32 0x00000000#32)))
        (log1p (exp (subf (broadcast S6400x128 (Scalar.ofBits .f32 0x00000000#32))
          (absf (subf v8 (broadcast S6400x128 (Scalar.ofBits .f32 0x00000000#32)))))))))
    (broadcast S6400x128 (Scalar.ofBits .f32 0x3F317218#32))

/-- The second layer: activations times the second weights, plus the second bias row. -/
private def layer2 (v24 : FVec Ideal S6400x128 .f32) (x5 : Vec Ideal S128x128 .f32) (x6 : Vec Ideal S1x128 .f32) :
    FVec Ideal S6400x128 .f32 :=
  addf (matmul dot_S6400x128_S128x128_S6400x128_1_0_0_1_n_n none (truncf .bf16 v24 bitsLt_bf16_f32) (truncf .bf16 x5 bitsLt_bf16_f32)
      (constant S6400x128 .f32 0x00000000#32))
    (broadcastTo S6400x128 (shapeCast S1x128 x6 shapeCasts_S1x128_S1x128) broadcasts_S1x128_S6400x128)

/-- The filter network of the body is the three stages composed. -/
private theorem pay2_stages (x0 : Vec Ideal S6400x50 .f32) (x3 : Vec Ideal S50x128 .f32) (x4 : Vec Ideal S1x128 .f32)
    (x5 : Vec Ideal S128x128 .f32) (x6 : Vec Ideal S1x128 .f32) :
    k1_pay2 x0 x3 x4 x5 x6 = layer2 (activate (layer1 x0 x3 x4)) x5 x6 := rfl

/-- The first layer at (p, k): the row of edge attributes against column k of the first weights, plus the bias. -/
private theorem layer1_entry (x0 : Vec Ideal S6400x50 .f32) (x3 : Vec Ideal S50x128 .f32) (x4 : Vec Ideal S1x128 .f32)
    (p : Fin 6400) (k : Fin 128) :
    layer1 x0 x3 x4 (ix2 p k) = (∑ j : Fin 50, x0 (ix2 p j) * x3 (ix2 j k)) + x4 (ix2 0 k) := by
  unfold layer1
  refine (addf_apply _ _ _).trans ?_
  refine congrArg₂ (· + ·) ?_ ?_
  · exact MatRows.matmul_zero_apply _ none _ _ p k
  · refine (broadcastTo_1b_ab_apply _ _ p k).trans ?_
    rw [shapeCast_self]

/-- The activation at any entry is the shifted softplus of that entry. -/
private theorem activate_entry (v8 : FVec Ideal S6400x128 .f32) (j : S6400x128.Idx) :
    activate v8 j = Cert.Spec.ssp (v8 j) := softplus_entry (v8 j)

/-- The second layer at (p, q): the row of activations against column q of the second weights, plus the bias. -/
private theorem layer2_entry (v24 : FVec Ideal S6400x128 .f32) (x5 : Vec Ideal S128x128 .f32) (x6 : Vec Ideal S1x128 .f32)
    (p : Fin 6400) (q : Fin 128) :
    layer2 v24 x5 x6 (ix2 p q) = (∑ k : Fin 128, v24 (ix2 p k) * x5 (ix2 k q)) + x6 (ix2 0 q) := by
  unfold layer2
  refine (addf_apply _ _ _).trans ?_
  refine congrArg₂ (· + ·) ?_ ?_
  · exact MatRows.matmul_zero_apply _ none _ _ p q
  · refine (broadcastTo_1b_ab_apply _ _ p q).trans ?_
    rw [shapeCast_self]

/-- The filter network of the body at (p, q), in the rows of its five operands. -/
private theorem filter_entry (x0 : Vec Ideal S6400x50 .f32) (x3 : Vec Ideal S50x128 .f32) (x4 : Vec Ideal S1x128 .f32)
    (x5 : Vec Ideal S128x128 .f32) (x6 : Vec Ideal S1x128 .f32) (p : Fin 6400) (q : Fin 128) :
    k1_pay2 x0 x3 x4 x5 x6 (ix2 p q)
      = (∑ k : Fin 128, Cert.Spec.ssp ((∑ j : Fin 50, x0 (ix2 p j) * x3 (ix2 j k)) + x4 (ix2 0 k)) * x5 (ix2 k q))
        + x6 (ix2 0 q) := by
  rw [pay2_stages]
  refine (layer2_entry _ x5 x6 p q).trans ?_
  refine congrArg₂ (· + ·) (Finset.sum_congr rfl fun k _ => ?_) rfl
  rw [activate_entry, layer1_entry]

/-- The cutoff column of the body at row p, before its halving: the cosine of the edge length times π/10, plus one. -/
private theorem cosine_entry (x1 : Vec Ideal S6400x1 .f32) (p : Fin 6400) :
    k1_pay3 x1 (ix2 p 0) = Ideal.cos (x1 (ix2 p 0) * Cert.Spec.piTenth) + Cert.Spec.one := by
  unfold k1_pay3
  rw [shapeCast_self]
  rfl

/-- The stored product at (p, q): the gathered entry times (the filter entry times half the cutoff column's entry of
    row p). -/
private theorem product_entry (v32 : FVec Ideal S6400x128 .f32) (v39 : FVec Ideal S6400x1 .f32) (v44 : Vec Ideal S6400x128 .f32)
    (p : Fin 6400) (q : Fin 128) :
    k1_pay1 v32 v39 v44 (ix2 p q) = v44 (ix2 p q) * (v32 (ix2 p q) * (Cert.Spec.half * v39 (ix2 p 0))) := by
  unfold k1_pay1
  rw [shapeCast_self]
  refine (mulf_apply _ _ _).trans ?_
  refine congrArg (v44 (ix2 p q) * ·) ?_
  refine (mulf_apply _ _ _).trans ?_
  refine congrArg (v32 (ix2 p q) * ·) ?_
  exact broadcastTo_a1_ab_apply _ _ p q

/-! ## The whole message array as one function of the arrays the launch reads -/

/-- Entry (e, q) of the message array: the gathered entry times the filter entry times the cutoff of edge e's length. -/
private def messages (hs : (⟨2, ![800000, 128]⟩ : Shape).Idx → EReal) (ea : (⟨2, ![800000, 50]⟩ : Shape).Idx → EReal)
    (w1 : (⟨2, ![50, 128]⟩ : Shape).Idx → EReal) (b1 : (⟨2, ![1, 128]⟩ : Shape).Idx → EReal)
    (w2 : (⟨2, ![128, 128]⟩ : Shape).Idx → EReal) (b2 : (⟨2, ![1, 128]⟩ : Shape).Idx → EReal)
    (d : (⟨2, ![800000, 1]⟩ : Shape).Idx → EReal) : (⟨2, ![800000, 128]⟩ : Shape).Idx → EReal :=
  fun i => Cert.Spec.edge (hs i)
    (Cert.Spec.filt ea w1 (fun k => b1 (ix2 0 k)) w2 (fun k => b2 (ix2 0 k)) (i 0) (i 1)) (d (ix2 (i 0) 0))

/-- The body's result at an entry y of its block is the message array's entry i, when the block rows the body reads
    at y are the array rows at i: the edge attribute row, the edge length and the gathered entry of the same edge, and the
    weights and biases whole. -/
private theorem block_entry (x0 : Vec Ideal S6400x50 .f32) (x1 : Vec Ideal S6400x1 .f32) (x2 : Vec Ideal S6400x128 .f32)
    (x3 : Vec Ideal S50x128 .f32) (x4 : Vec Ideal S1x128 .f32) (x5 : Vec Ideal S128x128 .f32) (x6 : Vec Ideal S1x128 .f32)
    (hs : (⟨2, ![800000, 128]⟩ : Shape).Idx → EReal) (ea : (⟨2, ![800000, 50]⟩ : Shape).Idx → EReal)
    (d : (⟨2, ![800000, 1]⟩ : Shape).Idx → EReal)
    (p : Fin 6400) (q : Fin 128) (e : Fin 800000)
    (h0 : ∀ j : Fin 50, x0 (ix2 p j) = ea (ix2 e j)) (h1 : x1 (ix2 p 0) = d (ix2 e 0)) (h2 : x2 (ix2 p q) = hs (ix2 e q)) :
    k1_pay1 (k1_pay2 x0 x3 x4 x5 x6) (k1_pay3 x1) x2 (ix2 p q) = messages hs ea x3 x4 x5 x6 d (ix2 e q) := by
  rw [product_entry, filter_entry, cosine_entry, h1, h2]
  simp only [h0]
  rfl

/-! ## From the blocks to the array -/

private theorem zeros2 : (![0, 0] : Fin 2 → Nat) = fun _ => 0 := funext fun a => by fin_cases a <;> rfl

/-- The index maps over the 125 points: the per-edge operands and the result take block t at point t, the weights and the
    biases their one block at every point. -/
private theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- The message array of the arrays as the launch finds them. -/
private abbrev msgs (c : Dev nD) : (⟨2, ![800000, 128]⟩ : Shape).Idx → EReal :=
  messages (V c main_v5) (V c main_arg3) (V c main_arg4) (V c main_v7) (V c main_arg6) (V c main_v8) (V c main_v6)

/-- Row p of the edge-attribute block at point t is row 6400·t + p of the array. -/
private theorem attr_block (c : Dev nD) (t : Fin cfg1.N) (p : Fin 6400) (j : Fin 50) (e : Fin 800000)
    (he : e.val = t.val * 6400 + p.val) :
    (iblk1 V c 0 t : Vec Ideal S6400x50 .f32) (ix2 p j) = V c main_arg3 (ix2 e j) := by
  obtain ⟨⟨a0, a1⟩, -⟩ := index_facts t
  show V c main_arg3 (((cfg1.win 0).blk t).view.emb (ix2 p j)) = V c main_arg3 (ix2 e j)
  refine congrArg (V c main_arg3) (funext fun a => Fin.ext ?_)
  match a with
  | ⟨0, _⟩ => show win1_0.index t (0 : Fin 2) * 6400 + 1 * p.val = e.val; omega
  | ⟨1, _⟩ => show win1_0.index t (1 : Fin 2) * 50 + 1 * j.val = j.val; omega

/-- Row p of the edge-length block at point t is row 6400·t + p of the array. -/
private theorem length_block (c : Dev nD) (t : Fin cfg1.N) (p : Fin 6400) (e : Fin 800000)
    (he : e.val = t.val * 6400 + p.val) :
    (iblk1 V c 1 t : Vec Ideal S6400x1 .f32) (ix2 p 0) = V c main_v6 (ix2 e 0) := by
  obtain ⟨-, ⟨a0, a1⟩, -⟩ := index_facts t
  show V c main_v6 (((cfg1.win 1).blk t).view.emb (ix2 p 0)) = V c main_v6 (ix2 e 0)
  refine congrArg (V c main_v6) (funext fun a => Fin.ext ?_)
  match a with
  | ⟨0, _⟩ => show win1_1.index t (0 : Fin 2) * 6400 + 1 * p.val = e.val; omega
  | ⟨1, _⟩ => show win1_1.index t (1 : Fin 2) * 1 + 1 * 0 = 0; omega

/-- Row p of the gathered block at point t is row 6400·t + p of the array. -/
private theorem gathered_block (c : Dev nD) (t : Fin cfg1.N) (p : Fin 6400) (q : Fin 128) (e : Fin 800000)
    (he : e.val = t.val * 6400 + p.val) :
    (iblk1 V c 2 t : Vec Ideal S6400x128 .f32) (ix2 p q) = V c main_v5 (ix2 e q) := by
  obtain ⟨-, -, ⟨a0, a1⟩, -⟩ := index_facts t
  show V c main_v5 (((cfg1.win 2).blk t).view.emb (ix2 p q)) = V c main_v5 (ix2 e q)
  refine congrArg (V c main_v5) (funext fun a => Fin.ext ?_)
  match a with
  | ⟨0, _⟩ => show win1_2.index t (0 : Fin 2) * 6400 + 1 * p.val = e.val; omega
  | ⟨1, _⟩ => show win1_2.index t (1 : Fin 2) * 128 + 1 * q.val = q.val; omega

/-- The first weights' block at every point is the whole array. -/
private theorem weights1_block (c : Dev nD) (t : Fin cfg1.N) :
    (iblk1 V c 3 t : Vec Ideal S50x128 .f32) = V c main_arg4 := by
  obtain ⟨-, -, -, ⟨a0, a1⟩, -⟩ := index_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 50 + 1 * (y 0).val = (y 0).val; omega
  | ⟨1, _⟩ => show win1_3.index t (1 : Fin 2) * 128 + 1 * (y 1).val = (y 1).val; omega

/-- The first bias row's block at every point is the whole array. -/
private theorem bias1_block (c : Dev nD) (t : Fin cfg1.N) :
    (iblk1 V c 4 t : Vec Ideal S1x128 .f32) = V c main_v7 := by
  obtain ⟨-, -, -, -, ⟨a0, a1⟩, -⟩ := index_facts t
  funext y
  show V c main_v7 (((cfg1.win 4).blk t).view.emb y) = V c main_v7 y
  refine congrArg (V c main_v7) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The second weights' block at every point is the whole array. -/
private theorem weights2_block (c : Dev nD) (t : Fin cfg1.N) :
    (iblk1 V c 5 t : Vec Ideal S128x128 .f32) = V c main_arg6 := by
  obtain ⟨-, -, -, -, -, ⟨a0, a1⟩, -⟩ := index_facts t
  funext y
  show V c main_arg6 (((cfg1.win 5).blk t).view.emb y) = V c main_arg6 y
  refine congrArg (V c main_arg6) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- The second bias row's block at every point is the whole array. -/
private theorem bias2_block (c : Dev nD) (t : Fin cfg1.N) :
    (iblk1 V c 6 t : Vec Ideal S1x128 .f32) = V c main_v8 := by
  obtain ⟨-, -, -, -, -, -, ⟨a0, a1⟩, -⟩ := index_facts t
  funext y
  show V c main_v8 (((cfg1.win 6).blk t).view.emb y) = V c main_v8 y
  refine congrArg (V c main_v8) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- What point t writes back is block t of the message array. -/
private theorem flushed_eq (c : Dev nD) (t : Fin cfg1.N) :
    (dat1 V c).flushed 7 t = ((cfg1.win 7).blk t).view.read (Elt Ideal) (msgs V c) := by
  show (cfg1.win 7).cut (grid1.coords t) ((dat1 V c).after 7 t) = _
  rw [after1_7]
  unfold out1_7
  rw [View.canon_unit_zero zeros2]
  simp only [View.ld_unit_zero (S := S6400x50) zeros2, View.ld_unit_zero (S := S6400x1) zeros2,
    View.ld_unit_zero (S := S6400x128) zeros2, View.ld_unit_zero (S := S50x128) zeros2,
    View.ld_unit_zero (S := S1x128) zeros2, View.ld_unit_zero (S := S128x128) zeros2]
  obtain ⟨-, -, -, -, -, -, -, ⟨a0, a1⟩⟩ := index_facts t
  funext j
  obtain ⟨p, q, rfl⟩ : ∃ (p : Fin 6400) (q : Fin 128), j = ix2 p q := ⟨j 0, j 1, eq_ix2 j⟩
  have hp : p.val < 6400 := p.isLt
  have ht : t.val < 125 := t.isLt
  -- the edge whose row the point's block holds at row p
  let e : Fin 800000 := ⟨t.val * 6400 + p.val, by omega⟩
  have he : e.val = t.val * 6400 + p.val := rfl
  have hi : ((cfg1.win 7).blk t).view.emb (ix2 p q) = (ix2 e q : S800000x128.Idx) := by
    funext a; apply Fin.ext
    match a with
    | ⟨0, _⟩ => show win1_7.index t (0 : Fin 2) * 6400 + 1 * p.val = t.val * 6400 + p.val; omega
    | ⟨1, _⟩ => show win1_7.index t (1 : Fin 2) * 128 + 1 * q.val = q.val; omega
  show k1_pay1 (k1_pay2 (iblk1 V c 0 t) (iblk1 V c 3 t) (iblk1 V c 4 t) (iblk1 V c 5 t) (iblk1 V c 6 t))
      (k1_pay3 (iblk1 V c 1 t)) (iblk1 V c 2 t) (ix2 p q) = msgs V c (((cfg1.win 7).blk t).view.emb (ix2 p q))
  rw [hi]
  refine (block_entry (iblk1 V c 0 t) (iblk1 V c 1 t) (iblk1 V c 2 t) (iblk1 V c 3 t) (iblk1 V c 4 t) (iblk1 V c 5 t)
    (iblk1 V c 6 t) (V c main_v5) (V c main_arg3) (V c main_v6) p q e
    (fun j => attr_block V c t p j e he) (length_block V c t p e he) (gathered_block V c t p q e he)).trans ?_
  rw [weights1_block V c t, bias1_block V c t, weights2_block V c t, bias2_block V c t]

/-- An index of the message array is in point t's block iff each coordinate is in the block's range on its axis. -/
private theorem mem_block (t : Fin cfg1.N) (i : S800000x128.Idx) :
    i ∈ ((cfg1.win 7).blk t).view.set ↔ ∀ a : Fin 2, win1_7.index t a * S6400x128.size a ≤ (i a).val
      ∧ (i a).val < win1_7.index t a * S6400x128.size a + S6400x128.size a := by
  show i ∈ ((View.whole main_v9).slice (win1_7.rect t)).set ↔ _
  rw [View.set_slice_whole, Rect.mem_set_unit]
  exact Iff.rfl

/-- Every entry of the message array is in the block of the point its row's number divided by 6400 names. -/
private theorem cover (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  let t : Fin cfg1.N := ⟨(i 0).val / 6400, by show (i 0).val / 6400 < 125; omega⟩
  obtain ⟨-, -, -, -, -, -, -, ⟨a0, a1⟩⟩ := index_facts t
  have a0' : win1_7.index t (0 : Fin 2) = (i 0).val / 6400 := a0
  refine ⟨t, flush1_7 t, ?_⟩
  rw [mem_block]
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 128 ≤ (i 1).val ∧ (i 1).val < win1_7.index t (1 : Fin 2) * 128 + 128; omega

/-- The message array after the launch, entry by entry. -/
theorem final (c : Dev nD) (e : Fin 800000) (q : Fin 128) :
    (dat1 V c).arrAt 7 cfg1.N (ix2 e q)
      = Cert.Spec.edge (V c main_v5 (ix2 e q))
          (Cert.Spec.filt (V c main_arg3) (V c main_arg4) (fun k => V c main_v7 (ix2 0 k)) (V c main_arg6)
            (fun k => V c main_v8 (ix2 0 k)) e q)
          (V c main_v6 (ix2 e 0)) :=
  congrFun ((dat1 V c).arrAt_eq_of_cover 7 (msgs V c) (fun t _ => flushed_eq V c t) cover) (ix2 e q)

end Cert.KernelIdeal.Region1

end
-- ==== Proof.Region2.lean ====
/-
  The third launch: the node update.

  Ten grid points, point t taking rows 5000·t … 5000·t + 4999 of the aggregate and the whole weights and biases. Every
  operation of the body acts on a node's row alone, so the result array ends holding, at (p, q), the update of row p.
-/
import proofs.«424310_j41300405518873_1_alg».proof.Proof.Gen.KernelIdeal.Frame
import proofs.«424310_j41300405518873_1_alg».proof.Proof.Spec
import proofs.«424310_j41300405518873_1_alg».proof.Proof.LibMatRows
import Idealize.ShloMosaic.Lib.ValueLayout
import Idealize.ShloMosaic.Lib.Pipeline.Value

noncomputable section

open scoped BigOperators

namespace Cert.KernelIdeal.Region2

open Cert.KernelIdeal Cert.KernelIdeal.Gen Idealize.ShloMosaic Idealize.ShloMosaic.ValueIdx Idealize.ShloMosaic.TcCoe Idealize.SL.Sem

variable (V : (c : Dev nD) → (b : Ref sig .tc) → Buf (Elt Ideal) ((c : Thread nD τ).loc b))

/-! ## The body at an entry of its block -/

/-- On the extended reals a value is never different from itself: the comparison `y ≠ y` answers the zero bit. -/
private theorem cmp_one_self (y : EReal) : FloatOps.cmpf (F := Ideal) (φ := .f32) .one y y = 0#1 := by
  show BitVec.ofBool (decide (y ≠ y)) = 0#1
  simp

/-- The body's softplus chain at a scalar `z`: the selection keeps the branch `max(z, 0) + log(1 + e^(0 − |z − 0|))`,
    since `z − 0` is never different from itself, and `0 − y = −y` once the zero word is read as `0`: the shifted
    softplus of the specification. -/
private theorem chain_scalar (z : EReal) :
    Scalar.select (FloatOps.cmpf (F := Ideal) (φ := .f32) .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      - Ideal.ofBits .f32 0x3F317218#32 = Cert.Spec.ssp z := by
  rw [cmp_one_self, select_zero]
  unfold Cert.Spec.ssp Cert.Spec.zero Cert.Spec.ln2w
  rw [Ideal.ofBits_zero_f32, sub_eq_add_neg (0 : EReal), zero_add]

/-- The softplus chain as the body spells it on a whole block `v` of pre-activations, read at an index: every step is
    pointwise, so it is the scalar chain at `v i`. -/
private theorem chain_apply (v : FVec Ideal S5000x128 .f32) (i : S5000x128.Idx) :
    (truncf .bf16
      (subf
        (select
          (cmpf CmpFPredicate.one (subf v (broadcast S5000x128 (FloatOps.ofBits FTy.f32 0x00000000#32)))
            (subf v (broadcast S5000x128 (FloatOps.ofBits FTy.f32 0x00000000#32))))
          (addf v (broadcast S5000x128 (FloatOps.ofBits FTy.f32 0x00000000#32)))
          (addf (maximumf v (broadcast S5000x128 (FloatOps.ofBits FTy.f32 0x00000000#32)))
            (log1p (exp (subf (broadcast S5000x128 (FloatOps.ofBits FTy.f32 0x00000000#32))
              (absf (subf v (broadcast S5000x128 (FloatOps.ofBits FTy.f32 0x00000000#32)))))))))
        (broadcast S5000x128 (FloatOps.ofBits FTy.f32 0x3F317218#32)))
      bitsLt_bf16_f32 : FVec Ideal S5000x128 .bf16) i = Cert.Spec.ssp (v i) :=
  chain_scalar (v i)

/-- A product of a block `a` with a weight matrix `w` into the zero splat, plus the bias row `b` broadcast over the rows,
    at entry `(p, q)`: the sum over the 128 features of row `p` of `a` against column `q` of `w`, plus `b(0, q)`. The
    change of format of `w` is the identity on the extended reals. -/
private theorem affine_apply (a : FVec Ideal S5000x128 .bf16) (w : Vec Ideal S128x128 .f32) (b : Vec Ideal S1x128 .f32)
    (p : Fin 5000) (q : Fin 128) :
    addf (matmul (F := Ideal) dot_S5000x128_S128x128_S5000x128_1_0_0_1_n_n none a (truncf FTy.bf16 w bitsLt_bf16_f32)
          (constant S5000x128 FTy.f32 0x00000000#32))
        (broadcastTo S5000x128 (shapeCast S1x128 b shapeCasts_S1x128_S1x128) broadcasts_S1x128_S5000x128) (ix2 p q)
      = (∑ k : Fin 128, a (ix2 p k) * w (ix2 k q)) + b (ix2 0 q) := by
  refine (addf_apply _ _ _).trans ?_
  refine congrArg₂ (· + ·) ?_ ?_
  · exact MatRows.matmul_zero_apply _ none _ _ p q
  · exact (broadcastTo_1b_ab_apply _ _ p q).trans (congrFun (shapeCast_self b _) (ix2 0 q))

/-- The update of one node from its row `r` of the aggregate: `ssp (r · lin2 + lin2b) · lin + linb` at feature `q`. -/
private def rowUpdate (r : Fin 128 → EReal) (lin2 : (⟨2, ![128, 128]⟩ : Shape).Idx → EReal) (lin2b : Fin 128 → EReal)
    (lin : (⟨2, ![128, 128]⟩ : Shape).Idx → EReal) (linb : Fin 128 → EReal) (q : Fin 128) : EReal :=
  (∑ k : Fin 128, Cert.Spec.ssp ((∑ j : Fin 128, r j * lin2 (ix2 j k)) + lin2b k) * lin (ix2 k q)) + linb q

/-- The body's result at row `p`, column `q` of its block depends on row `p` of the loaded aggregate block alone: it is
    the update of that row (two products with a bias each, the softplus chain between them). -/
private theorem pay_row (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k2_pay1 x0 x1 x2 x3 x4 (ix2 p q)
      = rowUpdate (fun j => x0 (ix2 p j)) x1 (fun k => x2 (ix2 0 k)) x3 (fun k => x4 (ix2 0 k)) q := by
  unfold k2_pay1 rowUpdate
  refine (affine_apply _ x3 x4 p q).trans ?_
  refine congrArg₂ (· + ·) ?_ rfl
  refine Finset.sum_congr rfl fun k _ => ?_
  refine congrArg₂ (· * ·) ?_ rfl
  refine (chain_apply _ (ix2 p k)).trans ?_
  refine congrArg Cert.Spec.ssp ?_
  refine (affine_apply _ x1 x2 p k).trans ?_
  refine congrArg₂ (· + ·) ?_ rfl
  refine Finset.sum_congr rfl fun j _ => ?_
  refine congrArg₂ (· * ·) ?_ rfl
  exact congrFun (shapeCast_self x0 _) (ix2 p j)

/-! ## From the blocks to the array -/

/-- The node update as one array over the aggregate, the two weight matrices and the two bias rows: entry `(p, q)` is
    the update of row `p` at feature `q`. -/
private def nodeArr (a : (⟨2, ![50000, 128]⟩ : Shape).Idx → EReal) (lin2 : (⟨2, ![128, 128]⟩ : Shape).Idx → EReal)
    (lin2b : (⟨2, ![1, 128]⟩ : Shape).Idx → EReal) (lin : (⟨2, ![128, 128]⟩ : Shape).Idx → EReal)
    (linb : (⟨2, ![1, 128]⟩ : Shape).Idx → EReal) : (⟨2, ![50000, 128]⟩ : Shape).Idx → EReal :=
  fun i => rowUpdate (fun j => a (ix2 (i 0) j)) lin2 (fun k => lin2b (ix2 0 k)) lin (fun k => linb (ix2 0 k)) (i 1)

private theorem origin : (![0, 0] : Fin 2 → Nat) = fun _ => 0 := funext fun a => by fin_cases a <;> rfl

/-- The index maps over the ten points: the aggregate's block moves with the result's, both at block row `t` and block
    column 0; the weights and the bias rows stay at block (0, 0). -/
private theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first weight matrix's block at every point is the whole matrix (block (0, 0) of size 128 × 128). -/
private theorem lin2_blk (c : Dev nD) (t : Fin cfg2.N) : (iblk2 V c 1 t : Vec Ideal S128x128 .f32) = V c main_arg9 := by
  obtain ⟨-, -, e0, e1, -⟩ := idx_facts t
  funext y
  unfold iblk2
  show V c main_arg9 (((cfg2.win 1).blk t).view.emb y) = V c main_arg9 y
  refine congrArg (V c main_arg9) ?_
  funext ax; apply Fin.ext
  match ax with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias row's block at every point is the whole row (block (0, 0) of size 1 × 128). -/
private theorem lin2b_blk (c : Dev nD) (t : Fin cfg2.N) : (iblk2 V c 2 t : Vec Ideal S1x128 .f32) = V c main_v13 := by
  obtain ⟨-, -, -, -, e0, e1, -⟩ := idx_facts t
  funext y
  unfold iblk2
  show V c main_v13 (((cfg2.win 2).blk t).view.emb y) = V c main_v13 y
  refine congrArg (V c main_v13) ?_
  funext ax; apply Fin.ext
  match ax with
  | ⟨0, _⟩ => show win2_2.index t (0 : Fin 2) * 1 + 1 * (y 0).val = (y 0).val; omega
  | ⟨1, _⟩ => show win2_2.index t (1 : Fin 2) * 128 + 1 * (y 1).val = (y 1).val; omega

/-- The second weight matrix's block at every point is the whole matrix. -/
private theorem lin_blk (c : Dev nD) (t : Fin cfg2.N) : (iblk2 V c 3 t : Vec Ideal S128x128 .f32) = V c main_arg11 := by
  obtain ⟨-, -, -, -, -, -, e0, e1, -⟩ := idx_facts t
  funext y
  unfold iblk2
  show V c main_arg11 (((cfg2.win 3).blk t).view.emb y) = V c main_arg11 y
  refine congrArg (V c main_arg11) ?_
  funext ax; apply Fin.ext
  match ax with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias row's block at every point is the whole row. -/
private theorem linb_blk (c : Dev nD) (t : Fin cfg2.N) : (iblk2 V c 4 t : Vec Ideal S1x128 .f32) = V c main_v14 := by
  obtain ⟨-, -, -, -, -, -, -, -, e0, e1, -⟩ := idx_facts t
  funext y
  unfold iblk2
  show V c main_v14 (((cfg2.win 4).blk t).view.emb y) = V c main_v14 y
  refine congrArg (V c main_v14) ?_
  funext ax; apply Fin.ext
  match ax with
  | ⟨0, _⟩ => show win2_4.index t (0 : Fin 2) * 1 + 1 * (y 0).val = (y 0).val; omega
  | ⟨1, _⟩ => show win2_4.index t (1 : Fin 2) * 128 + 1 * (y 1).val = (y 1).val; omega

/-- Row `a` of the aggregate's block at point `t` is the aggregate's row under row `a` of the result's block: on the row
    axis both blocks start at block index × 5000, on the feature axis at 0. -/
private theorem agg_blk_row (c : Dev nD) (t : Fin cfg2.N) (a : Fin 5000) (b : Fin 128) (j : Fin 128) :
    (iblk2 V c 0 t : Vec Ideal S5000x128 .f32) (ix2 a j)
      = V c main_v12 (ix2 ((((cfg2.win 5).blk t).view.emb (ix2 a b) : S50000x128.Idx) 0) j) := by
  obtain ⟨e0, e1, -⟩ := idx_facts t
  unfold iblk2
  show V c main_v12 (((cfg2.win 0).blk t).view.emb (ix2 a j)) = _
  refine congrArg (V c main_v12) ?_
  funext ax; apply Fin.ext
  match ax with
  | ⟨0, _⟩ => show win2_0.index t (0 : Fin 2) * 5000 + 1 * a.val = win2_5.index t (0 : Fin 2) * 5000 + 1 * a.val; omega
  | ⟨1, _⟩ => show win2_0.index t (1 : Fin 2) * 128 + 1 * j.val = j.val; omega

/-- Column `b` of the result's block is column `b` of the result array. -/
private theorem out_blk_col (t : Fin cfg2.N) (a : Fin 5000) (b : Fin 128) :
    (((cfg2.win 5).blk t).view.emb (ix2 a b) : S50000x128.Idx) 1 = b := by
  obtain ⟨-, -, -, -, -, -, -, -, -, -, e0, e1⟩ := idx_facts t
  apply Fin.ext
  show win2_5.index t (1 : Fin 2) * 128 + 1 * b.val = b.val
  omega

/-- What point `t` writes back is block `t` of the node update of the arrays as the launch finds them. -/
private theorem flushed_eq (c : Dev nD) (t : Fin cfg2.N) :
    (dat2 V c).flushed 5 t = ((cfg2.win 5).blk t).view.read (Elt Ideal)
      (nodeArr (V c main_v12) (V c main_arg9) (V c main_v13) (V c main_arg11) (V c main_v14)) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S1x128) origin]
  funext j
  obtain ⟨a, b, rfl⟩ : ∃ (a : Fin 5000) (b : Fin 128), j = ix2 a b := ⟨j 0, j 1, eq_ix2 j⟩
  refine (pay_row (iblk2 V c 0 t) (iblk2 V c 1 t) (iblk2 V c 2 t) (iblk2 V c 3 t) (iblk2 V c 4 t) a b).trans ?_
  rw [lin2_blk V c t, lin2b_blk V c t, lin_blk V c t, linb_blk V c t]
  show rowUpdate (fun j => (iblk2 V c 0 t : Vec Ideal S5000x128 .f32) (ix2 a j)) (V c main_arg9) (fun k => V c main_v13 (ix2 0 k))
        (V c main_arg11) (fun k => V c main_v14 (ix2 0 k)) b
      = rowUpdate (fun j => V c main_v12 (ix2 ((((cfg2.win 5).blk t).view.emb (ix2 a b) : S50000x128.Idx) 0) j)) (V c main_arg9)
        (fun k => V c main_v13 (ix2 0 k)) (V c main_arg11) (fun k => V c main_v14 (ix2 0 k))
        ((((cfg2.win 5).blk t).view.emb (ix2 a b) : S50000x128.Idx) 1)
  rw [out_blk_col t a b]
  exact congrArg (fun r => rowUpdate r (V c main_arg9) (fun k => V c main_v13 (ix2 0 k)) (V c main_arg11)
    (fun k => V c main_v14 (ix2 0 k)) b) (funext fun j => agg_blk_row V c t a b j)

/-- An index of the result array is in point `t`'s block iff each coordinate is in the block's range on its axis. -/
private theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v15).slice (win2_5.rect t)).set ↔ _
  rw [View.set_slice_whole, Rect.mem_set_unit]
  exact Iff.rfl

/-- Every entry of the result array is in some point's block: row `r` in that of point `r / 5000`, whose block holds
    rows `5000 · (r / 5000)` … `5000 · (r / 5000) + 4999` and all 128 columns. -/
private theorem cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < grid2.N := by rw [N_2]; omega
  obtain ⟨-, -, -, -, -, -, -, -, -, -, e0, e1⟩ := idx_facts ⟨(i 0).val / 5000, hN⟩
  have e0' : win2_5.index ⟨(i 0).val / 5000, hN⟩ (0 : Fin 2) = (i 0).val / 5000 := e0
  refine ⟨⟨(i 0).val / 5000, hN⟩, flush2_5 _, ?_⟩
  rw [mem_blk]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    omega

/-- The result array after the launch, entry by entry. -/
theorem final (c : Dev nD) (p : Fin 50000) (q : Fin 128) :
    (dat2 V c).arrAt 5 cfg2.N (ix2 p q)
      = Cert.Spec.node (fun p j => V c main_v12 (ix2 p j)) (V c main_arg9) (fun k => V c main_v13 (ix2 0 k))
          (V c main_arg11) (fun k => V c main_v14 (ix2 0 k)) p q :=
  congrFun ((dat2 V c).arrAt_eq_of_cover 5
    (nodeArr (V c main_v12) (V c main_arg9) (V c main_v13) (V c main_arg11) (V c main_v14))
    (fun t _ => flushed_eq V c t) cover) (ix2 p q)

end Cert.KernelIdeal.Region2

end
-- ==== Proof.GlueArgs.lean ====
/-
  The host operations around the three launches, read where a launch finds its operands: the arguments.

  No host operation and no launch writes an argument array, so each launch finds the arguments it reads as they were at
  the start; the edge lengths and the four bias vectors reach their launches through a reshape ([800000] to [800000, 1],
  [128] to [1, 128]), which moves no entry. The program's result is the third launch's output array.
-/
import proofs.«424310_j41300405518873_1_alg».proof.Proof.Gen.KernelIdeal.Frame
import proofs.«424310_j41300405518873_1_alg».proof.Proof.Spec
import Idealize.ShloMosaic.Lib.ValueLayout

noncomputable section

open scoped BigOperators

namespace Cert.KernelIdeal.Glue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- A stretch of host operations leaves a buffer that none of its operations writes: the buffer differs from every
    operation's result buffer. -/
local macro "stretch_keeps" : tactic => `(tactic| (
  refine StableHlo.after_of_forall_not_mem _ _ (List.forall_iff_forall_mem.mp ?_)
  simp only [hostOps0, hostOps1, hostOps1_1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at each launch's entry: no operation before it writes an argument -/

/-- The first launch finds the node features as launched. -/
theorem V1_arg0 (c : Dev nD) : V1 m ρ c main_arg0 = m ((c : Thread nD τ).loc main_arg0) :=
  calc V1 m ρ c main_arg0
    _ = W0 m ρ c (Proc.devRef .tc main_arg0) := by stretch_keeps
    _ = m ((c : Thread nD τ).loc main_arg0) := rfl
/-- The first launch finds the projection weights as launched. -/
theorem V1_arg8 (c : Dev nD) : V1 m ρ c main_arg8 = m ((c : Thread nD τ).loc main_arg8) :=
  calc V1 m ρ c main_arg8
    _ = W0 m ρ c (Proc.devRef .tc main_arg8) := by stretch_keeps
    _ = m ((c : Thread nD τ).loc main_arg8) := rfl
/-- The second launch finds the edge attributes as launched. -/
theorem V4_arg3 (c : Dev nD) : V4 m ρ c main_arg3 = m ((c : Thread nD τ).loc main_arg3) :=
  calc V4 m ρ c main_arg3
    _ = W3 m ρ c (Proc.devRef .tc main_arg3) := by stretch_keeps
    _ = W2 m ρ c (Proc.devRef .tc main_arg3) := by stretch_keeps
    _ = W1 m ρ c (Proc.devRef .tc main_arg3) := W2_of_ne m ρ c main_arg3 (by decide)
    _ = W0 m ρ c (Proc.devRef .tc main_arg3) := by stretch_keeps
    _ = m ((c : Thread nD τ).loc main_arg3) := rfl
/-- The second launch finds the filter network's first weights as launched. -/
theorem V4_arg4 (c : Dev nD) : V4 m ρ c main_arg4 = m ((c : Thread nD τ).loc main_arg4) :=
  calc V4 m ρ c main_arg4
    _ = W3 m ρ c (Proc.devRef .tc main_arg4) := by stretch_keeps
    _ = W2 m ρ c (Proc.devRef .tc main_arg4) := by stretch_keeps
    _ = W1 m ρ c (Proc.devRef .tc main_arg4) := W2_of_ne m ρ c main_arg4 (by decide)
    _ = W0 m ρ c (Proc.devRef .tc main_arg4) := by stretch_keeps
    _ = m ((c : Thread nD τ).loc main_arg4) := rfl
/-- The second launch finds the filter network's second weights as launched. -/
theorem V4_arg6 (c : Dev nD) : V4 m ρ c main_arg6 = m ((c : Thread nD τ).loc main_arg6) :=
  calc V4 m ρ c main_arg6
    _ = W3 m ρ c (Proc.devRef .tc main_arg6) := by stretch_keeps
    _ = W2 m ρ c (Proc.devRef .tc main_arg6) := by stretch_keeps
    _ = W1 m ρ c (Proc.devRef .tc main_arg6) := W2_of_ne m ρ c main_arg6 (by decide)
    _ = W0 m ρ c (Proc.devRef .tc main_arg6) := by stretch_keeps
    _ = m ((c : Thread nD τ).loc main_arg6) := rfl

/-! ## The reshaped arguments of the second launch: a reshape keeps the row-major position of every entry -/

/-- The edge lengths are as launched where the reshapes before the second launch read them. -/
private theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by stretch_keeps
    _ = W1 m ρ c (Proc.devRef .tc main_arg2) := W2_of_ne m ρ c main_arg2 (by decide)
    _ = W0 m ρ c (Proc.devRef .tc main_arg2) := by stretch_keeps
    _ = m ((c : Thread nD τ).loc main_arg2) := rfl
/-- The filter network's first bias is as launched where the reshapes before the second launch read it. -/
private theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by stretch_keeps
    _ = W1 m ρ c (Proc.devRef .tc main_arg5) := W2_of_ne m ρ c main_arg5 (by decide)
    _ = W0 m ρ c (Proc.devRef .tc main_arg5) := by stretch_keeps
    _ = m ((c : Thread nD τ).loc main_arg5) := rfl
/-- The filter network's second bias is as launched where the reshapes before the second launch read it. -/
private theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by stretch_keeps
    _ = W1 m ρ c (Proc.devRef .tc main_arg7) := W2_of_ne m ρ c main_arg7 (by decide)
    _ = W0 m ρ c (Proc.devRef .tc main_arg7) := by stretch_keeps
    _ = m ((c : Thread nD τ).loc main_arg7) := rfl
/-- The edge lengths as a column: entry (e, 0) is length e. -/
theorem V4_v6_apply (c : Dev nD) (e : Fin 800000) : V4 m ρ c main_v6 (ix2 e 0) = m ((c : Thread nD τ).loc main_arg2) (ix1 e) := by
  have h : V4 m ρ c main_v6 = shapeCast S800000x1 (W3 m ρ c (Proc.devRef .tc main_arg2)) shapeCasts_S800000_S800000x1 := by
    show StableHlo.after hostOps1_1 (W3 m ρ c) (Proc.devRef .tc main_v6) = _
    after_results; rfl
  refine (congrFun h (ix2 e 0)).trans ((shapeCast_apply _ _ _ (ix1 e) ?_).trans (congrFun (W3_arg2 m ρ c) (ix1 e)))
  rw [Shape.rowMajor_val_two, Shape.rowMajor_val_one]
  show e.val = e.val * 1 + 0
  omega
/-- The filter network's first bias as a row: entry (0, k) is bias k. -/
theorem V4_v7_apply (c : Dev nD) (k : Fin 128) : V4 m ρ c main_v7 (ix2 0 k) = m ((c : Thread nD τ).loc main_arg5) (ix1 k) := by
  have e : V4 m ρ c main_v7 = shapeCast S1x128 (W3 m ρ c (Proc.devRef .tc main_arg5)) shapeCasts_S128_S1x128 := by
    show StableHlo.after hostOps1_1 (W3 m ρ c) (Proc.devRef .tc main_v7) = _
    after_results; rfl
  exact (congrFun e (ix2 0 k)).trans ((shapeCast_a_1a_apply _ _ 0 k).trans (congrFun (W3_arg5 m ρ c) (ix1 k)))
/-- The filter network's second bias as a row. -/
theorem V4_v8_apply (c : Dev nD) (k : Fin 128) : V4 m ρ c main_v8 (ix2 0 k) = m ((c : Thread nD τ).loc main_arg7) (ix1 k) := by
  have e : V4 m ρ c main_v8 = shapeCast S1x128 (W3 m ρ c (Proc.devRef .tc main_arg7)) shapeCasts_S128_S1x128 := by
    show StableHlo.after hostOps1_1 (W3 m ρ c) (Proc.devRef .tc main_v8) = _
    after_results; rfl
  exact (congrFun e (ix2 0 k)).trans ((shapeCast_a_1a_apply _ _ 0 k).trans (congrFun (W3_arg7 m ρ c) (ix1 k)))

/-! ## The third launch's arguments -/

/-- The third launch finds the update's first weights as launched. -/
theorem V6_arg9 (c : Dev nD) : V6 m ρ c main_arg9 = m ((c : Thread nD τ).loc main_arg9) :=
  calc V6 m ρ c main_arg9
    _ = W5 m ρ c (Proc.devRef .tc main_arg9) := by stretch_keeps
    _ = W4 m ρ c (Proc.devRef .tc main_arg9) := W5_of_ne m ρ c main_arg9 (by decide)
    _ = W3 m ρ c (Proc.devRef .tc main_arg9) := by stretch_keeps
    _ = W2 m ρ c (Proc.devRef .tc main_arg9) := by stretch_keeps
    _ = W1 m ρ c (Proc.devRef .tc main_arg9) := W2_of_ne m ρ c main_arg9 (by decide)
    _ = W0 m ρ c (Proc.devRef .tc main_arg9) := by stretch_keeps
    _ = m ((c : Thread nD τ).loc main_arg9) := rfl
/-- The third launch finds the update's second weights as launched. -/
theorem V6_arg11 (c : Dev nD) : V6 m ρ c main_arg11 = m ((c : Thread nD τ).loc main_arg11) :=
  calc V6 m ρ c main_arg11
    _ = W5 m ρ c (Proc.devRef .tc main_arg11) := by stretch_keeps
    _ = W4 m ρ c (Proc.devRef .tc main_arg11) := W5_of_ne m ρ c main_arg11 (by decide)
    _ = W3 m ρ c (Proc.devRef .tc main_arg11) := by stretch_keeps
    _ = W2 m ρ c (Proc.devRef .tc main_arg11) := by stretch_keeps
    _ = W1 m ρ c (Proc.devRef .tc main_arg11) := W2_of_ne m ρ c main_arg11 (by decide)
    _ = W0 m ρ c (Proc.devRef .tc main_arg11) := by stretch_keeps
    _ = m ((c : Thread nD τ).loc main_arg11) := rfl
/-- The update's first bias is as launched where the reshapes before the third launch read it. -/
private theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := W5_of_ne m ρ c main_arg10 (by decide)
    _ = W3 m ρ c (Proc.devRef .tc main_arg10) := by stretch_keeps
    _ = W2 m ρ c (Proc.devRef .tc main_arg10) := by stretch_keeps
    _ = W1 m ρ c (Proc.devRef .tc main_arg10) := W2_of_ne m ρ c main_arg10 (by decide)
    _ = W0 m ρ c (Proc.devRef .tc main_arg10) := by stretch_keeps
    _ = m ((c : Thread nD τ).loc main_arg10) := rfl
/-- The update's second bias is as launched where the reshapes before the third launch read it. -/
private theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := W5_of_ne m ρ c main_arg12 (by decide)
    _ = W3 m ρ c (Proc.devRef .tc main_arg12) := by stretch_keeps
    _ = W2 m ρ c (Proc.devRef .tc main_arg12) := by stretch_keeps
    _ = W1 m ρ c (Proc.devRef .tc main_arg12) := W2_of_ne m ρ c main_arg12 (by decide)
    _ = W0 m ρ c (Proc.devRef .tc main_arg12) := by stretch_keeps
    _ = m ((c : Thread nD τ).loc main_arg12) := rfl
/-- The update's first bias as a row. -/
theorem V6_v13_apply (c : Dev nD) (k : Fin 128) : V6 m ρ c main_v13 (ix2 0 k) = m ((c : Thread nD τ).loc main_arg10) (ix1 k) := by
  have e : V6 m ρ c main_v13 = shapeCast S1x128 (W5 m ρ c (Proc.devRef .tc main_arg10)) shapeCasts_S128_S1x128 := by
    show StableHlo.after hostOps2 (W5 m ρ c) (Proc.devRef .tc main_v13) = _
    after_results; rfl
  exact (congrFun e (ix2 0 k)).trans ((shapeCast_a_1a_apply _ _ 0 k).trans (congrFun (W5_arg10 m ρ c) (ix1 k)))
/-- The update's second bias as a row. -/
theorem V6_v14_apply (c : Dev nD) (k : Fin 128) : V6 m ρ c main_v14 (ix2 0 k) = m ((c : Thread nD τ).loc main_arg12) (ix1 k) := by
  have e : V6 m ρ c main_v14 = shapeCast S1x128 (W5 m ρ c (Proc.devRef .tc main_arg12)) shapeCasts_S128_S1x128 := by
    show StableHlo.after hostOps2 (W5 m ρ c) (Proc.devRef .tc main_v14) = _
    after_results; rfl
  exact (congrFun e (ix2 0 k)).trans ((shapeCast_a_1a_apply _ _ 0 k).trans (congrFun (W5_arg12 m ρ c) (ix1 k)))
/-- The program's result buffer ends at the third launch's output array. -/
theorem W7_v15 (c : Dev nD) : W7 m ρ c (Proc.devRef .tc main_v15) = (dat2 (V6 m ρ) c).arrAt 5 cfg2.N :=
  W7_arr m ρ c 5

end Cert.KernelIdeal.Glue

end
-- ==== Proof.LibTypedRead.lean ====
/-
  Reading the buffer of a typed reference at the value's own type.

  The operations of a module-local function are stated over references that carry the type of the tensor value they
  hold. Each operation's function is given at those carried types and moved to the buffers' own types along the
  references' type equations, once on the way in for every operand and once on the way out for the result. Read back
  at the carried type, the result of an operation is its function of the operands read the same way, and a typed
  reference the operation does not write reads what it read before. The two transports of one reference cancel for
  ANY typed reference, because its carried type may be replaced by the buffer's own type: nothing has to be computed
  from the signature's tables, and no transport is left in what a line of such operations leaves in a buffer.
-/
import Idealize.ShloMosaic.Lib.StableHlo.Run

noncomputable section

namespace Idealize.ShloMosaic.StableHlo.TypedRead

open Idealize.ShloMosaic Idealize.ShloMosaic.StableHlo

variable {τ : Topo} {sig : RefSig} {Val : EltTy → Type} {T Tx Ta Tb Tc Ty : BufTy}

/-- What the buffer of the typed reference `x` holds in the valuation `F`, at the type `x` carries. -/
def rd (F : Valuation τ sig Val) (x : TRef sig T) : T.Contents Val := x.ofBuf (F (Proc.devRef .tc x.ref))

/-- Moving contents to the buffer's type and back is the identity. -/
theorem ofBuf_toBuf (x : TRef sig T) (v : T.Contents Val) : x.ofBuf (Val := Val) (x.toBuf v) = v := by
  obtain ⟨r, rfl, _, _⟩ := x
  rfl

/-- A typed reference whose buffer an operation does not write reads after it what it read before. -/
theorem rd_of_not_mem (op : HloOp τ sig Val) (F : Valuation τ sig Val) (z : TRef sig T)
    (h : Proc.devRef .tc z.ref ∉ op.writes) : rd (op.result F) z = rd F z := by
  unfold rd
  rw [op.result_of_not_mem F h]

/-! ## The result of each operation, read at its own typed reference -/

theorem rd_nullary (y : TRef sig Ty) (v : Ty.Contents Val) (F : Valuation τ sig Val) :
    rd ((TRef.nullary (τ := τ) y v).result F) y = v := by
  unfold rd
  rw [show (TRef.nullary (τ := τ) y v).result F (Proc.devRef .tc y.ref) = y.toBuf v from nullary_result _ _ _ F]
  exact ofBuf_toBuf y v

theorem rd_unary (x : TRef sig Tx) (y : TRef sig Ty) (f : Tx.Contents Val → Ty.Contents Val) (F : Valuation τ sig Val) :
    rd ((TRef.unary (τ := τ) x y f).result F) y = f (rd F x) := by
  unfold rd
  rw [show (TRef.unary (τ := τ) x y f).result F (Proc.devRef .tc y.ref)
      = y.toBuf (f (x.ofBuf (F (Proc.devRef .tc x.ref)))) from unary_result _ _ _ _ _ F]
  exact ofBuf_toBuf y _

theorem rd_binary (a : TRef sig Ta) (b : TRef sig Tb) (y : TRef sig Ty)
    (f : Ta.Contents Val → Tb.Contents Val → Ty.Contents Val) (F : Valuation τ sig Val) :
    rd ((TRef.binary (τ := τ) a b y f).result F) y = f (rd F a) (rd F b) := by
  unfold rd
  rw [show (TRef.binary (τ := τ) a b y f).result F (Proc.devRef .tc y.ref)
      = y.toBuf (f (a.ofBuf (F (Proc.devRef .tc a.ref))) (b.ofBuf (F (Proc.devRef .tc b.ref))))
      from binary_result _ _ _ _ _ _ _ F]
  exact ofBuf_toBuf y _

theorem rd_ternary (c : TRef sig Tc) (a : TRef sig Ta) (b : TRef sig Tb) (y : TRef sig Ty)
    (f : Tc.Contents Val → Ta.Contents Val → Tb.Contents Val → Ty.Contents Val) (F : Valuation τ sig Val) :
    rd ((TRef.ternary (τ := τ) c a b y f).result F) y = f (rd F c) (rd F a) (rd F b) := by
  unfold rd
  rw [show (TRef.ternary (τ := τ) c a b y f).result F (Proc.devRef .tc y.ref)
      = y.toBuf (f (c.ofBuf (F (Proc.devRef .tc c.ref))) (a.ofBuf (F (Proc.devRef .tc a.ref)))
          (b.ofBuf (F (Proc.devRef .tc b.ref))))
      from ternary_result _ _ _ _ _ _ _ _ _ F]
  exact ofBuf_toBuf y _

/-! ## Another typed reference keeps what it read -/

theorem rd_nullary_ne (y : TRef sig Ty) (v : Ty.Contents Val) (F : Valuation τ sig Val) (z : TRef sig T)
    (h : z.ref ≠ y.ref) : rd ((TRef.nullary (τ := τ) y v).result F) z = rd F z :=
  rd_of_not_mem _ F z fun hm => devRef_ne_of_ne h (Finset.mem_singleton.mp hm)

theorem rd_unary_ne (x : TRef sig Tx) (y : TRef sig Ty) (f : Tx.Contents Val → Ty.Contents Val) (F : Valuation τ sig Val)
    (z : TRef sig T) (h : z.ref ≠ y.ref) : rd ((TRef.unary (τ := τ) x y f).result F) z = rd F z :=
  rd_of_not_mem _ F z fun hm => devRef_ne_of_ne h (Finset.mem_singleton.mp hm)

theorem rd_binary_ne (a : TRef sig Ta) (b : TRef sig Tb) (y : TRef sig Ty)
    (f : Ta.Contents Val → Tb.Contents Val → Ty.Contents Val) (F : Valuation τ sig Val)
    (z : TRef sig T) (h : z.ref ≠ y.ref) : rd ((TRef.binary (τ := τ) a b y f).result F) z = rd F z :=
  rd_of_not_mem _ F z fun hm => devRef_ne_of_ne h (Finset.mem_singleton.mp hm)

theorem rd_ternary_ne (c : TRef sig Tc) (a : TRef sig Ta) (b : TRef sig Tb) (y : TRef sig Ty)
    (f : Tc.Contents Val → Ta.Contents Val → Tb.Contents Val → Ty.Contents Val) (F : Valuation τ sig Val)
    (z : TRef sig T) (h : z.ref ≠ y.ref) : rd ((TRef.ternary (τ := τ) c a b y f).result F) z = rd F z :=
  rd_of_not_mem _ F z fun hm => devRef_ne_of_ne h (Finset.mem_singleton.mp hm)

/-! ## The same facts in the form one simplifier pass uses

The operation is left out of the index: the builders over typed references unfold to projections of the references,
which an index built before the references are known would be keyed on. -/

theorem rd_nullary' (y : TRef sig Ty) (v : Ty.Contents Val) (F : Valuation τ sig Val) :
    rd (HloOp.result (no_index (TRef.nullary (τ := τ) y v)) F) y = v := rd_nullary y v F
theorem rd_unary' (x : TRef sig Tx) (y : TRef sig Ty) (f : Tx.Contents Val → Ty.Contents Val) (F : Valuation τ sig Val) :
    rd (HloOp.result (no_index (TRef.unary (τ := τ) x y f)) F) y = f (rd F x) := rd_unary x y f F
theorem rd_binary' (a : TRef sig Ta) (b : TRef sig Tb) (y : TRef sig Ty)
    (f : Ta.Contents Val → Tb.Contents Val → Ty.Contents Val) (F : Valuation τ sig Val) :
    rd (HloOp.result (no_index (TRef.binary (τ := τ) a b y f)) F) y = f (rd F a) (rd F b) := rd_binary a b y f F
theorem rd_ternary' (c : TRef sig Tc) (a : TRef sig Ta) (b : TRef sig Tb) (y : TRef sig Ty)
    (f : Tc.Contents Val → Ta.Contents Val → Tb.Contents Val → Ty.Contents Val) (F : Valuation τ sig Val) :
    rd (HloOp.result (no_index (TRef.ternary (τ := τ) c a b y f)) F) y = f (rd F c) (rd F a) (rd F b) :=
  rd_ternary c a b y f F

theorem rd_nullary_ne' (y : TRef sig Ty) (v : Ty.Contents Val) (F : Valuation τ sig Val) (z : TRef sig T)
    (h : z.ref ≠ y.ref) : rd (HloOp.result (no_index (TRef.nullary (τ := τ) y v)) F) z = rd F z :=
  rd_nullary_ne y v F z h
theorem rd_unary_ne' (x : TRef sig Tx) (y : TRef sig Ty) (f : Tx.Contents Val → Ty.Contents Val) (F : Valuation τ sig Val)
    (z : TRef sig T) (h : z.ref ≠ y.ref) : rd (HloOp.result (no_index (TRef.unary (τ := τ) x y f)) F) z = rd F z :=
  rd_unary_ne x y f F z h
theorem rd_binary_ne' (a : TRef sig Ta) (b : TRef sig Tb) (y : TRef sig Ty)
    (f : Ta.Contents Val → Tb.Contents Val → Ty.Contents Val) (F : Valuation τ sig Val)
    (z : TRef sig T) (h : z.ref ≠ y.ref) : rd (HloOp.result (no_index (TRef.binary (τ := τ) a b y f)) F) z = rd F z :=
  rd_binary_ne a b y f F z h
theorem rd_ternary_ne' (c : TRef sig Tc) (a : TRef sig Ta) (b : TRef sig Tb) (y : TRef sig Ty)
    (f : Tc.Contents Val → Ta.Contents Val → Tb.Contents Val → Ty.Contents Val) (F : Valuation τ sig Val)
    (z : TRef sig T) (h : z.ref ≠ y.ref) : rd (HloOp.result (no_index (TRef.ternary (τ := τ) c a b y f)) F) z = rd F z :=
  rd_ternary_ne c a b y f F z h

/-- What a line of operations over typed references leaves at a typed reference, as the operations' functions of what
    the line found: one simplifier pass, the references told apart by computation. -/
macro "typed_results" : tactic =>
  `(tactic| (simp (disch := decide) only [after_cons, after_nil,
      rd_nullary', rd_unary', rd_binary', rd_ternary',
      rd_nullary_ne', rd_unary_ne', rd_binary_ne', rd_ternary_ne']))

end Idealize.ShloMosaic.StableHlo.TypedRead

end
-- ==== Proof.GlueTake.lean ====
/-
  The host operations between the launches that move rows: the gather of the projected source nodes before the second
  launch, the scatter-add of the messages onto the target nodes before the third.

  The gather is spelt with a fill: a source number is first wrapped if negative (+50000), the row is read at the wrapped
  number clamped into the node range, and a row whose wrapped number is outside [0, 49999] is replaced by a fill value.
  When every source number is a node the wrap is the identity, no row is filled, and the gathered row is the projected row
  of the source node. The scatter-add adds to node p the rows of the edges whose target is p.
-/
import proofs.«424310_j41300405518873_1_alg».proof.Proof.Gen.KernelIdeal.Frame
import proofs.«424310_j41300405518873_1_alg».proof.Proof.Spec
import proofs.«424310_j41300405518873_1_alg».proof.Proof.LibRowOps
import proofs.«424310_j41300405518873_1_alg».proof.Proof.LibTypedRead
import Idealize.ShloMosaic.Lib.StableHlo.Predicate
import Idealize.ShloMosaic.Lib.ValueLayout

noncomputable section

open scoped BigOperators

namespace Cert.KernelIdeal.GlueTake

open Cert.KernelIdeal Cert.KernelIdeal.Gen Idealize.ShloMosaic Idealize.ShloMosaic.ValueIdx Idealize.ShloMosaic.TcCoe Idealize.SL.Sem

/-! ## Words: a row number that is a node -/

/-- A 32-bit word whose signed value lies in [0, 50000) is not negative, is at least 0 and at most 49999, as the signed
    comparisons read it. -/
theorem node_bits (b : BitVec 32) (h0 : 0 ≤ b.toInt) (h1 : b.toInt < 50000) :
    IntOp.cmpi .slt b 0#32 = 0#1 ∧ IntOp.cmpi .sge b 0#32 = 1#1 ∧ IntOp.cmpi .sle b 49999#32 = 1#1 := by
  have hlt := b.isLt
  rw [BitVec.toInt_eq_toNat_cond] at h0 h1
  have hn : b.toNat < 2 ^ 31 := by split at h0 <;> omega
  have hn' : b.toNat < 50000 := by split at h1 <;> omega
  refine ⟨?_, ?_, ?_⟩
  · refine eq_zero_of_ne_one fun h => ?_
    have := (StableHlo.Predicate.slt_iff_toNat (a := b) (b := 0#32) hn (by decide)).mp h
    exact Nat.not_lt_zero _ this
  · exact (StableHlo.Predicate.sge_iff_toNat (a := b) (b := 0#32) hn (by decide)).mpr (Nat.zero_le _)
  · refine (StableHlo.Predicate.sle_iff_toNat (a := b) (b := 49999#32) hn (by decide)).mpr ?_
    show b.toNat ≤ 49999
    omega

/-- A left fold by `and` from 1 over words that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_ones f l fun n hn => h n (List.mem_cons_of_mem _ hn)

/-! ## Layout: a vector as a column, a vector along the rows, the reduction of a one-column mask -/

/-- A vector of 800000 entries laid as a column reads, at (e, u), the vector at e. -/
theorem col_apply {α : Type} (h : S800000.BroadcastsInDim S800000x1 ![0]) (w : S800000.Idx → α) (e : Fin 800000) (u : Fin 1) :
    broadcastInDim S800000x1 ![0] h w (ix2 e u) = w (ix1 e) :=
  broadcastInDim_apply _ _ _ _ _ fun a => by match a with | ⟨0, _⟩ => rfl

/-- A vector of 800000 entries laid along the rows of an [800000, 128] array reads, at (e, q), the vector at e. -/
theorem rows_apply {α : Type} (h : S800000.BroadcastsInDim S800000x128 ![0]) (w : S800000.Idx → α) (e : Fin 800000) (q : Fin 128) :
    broadcastInDim S800000x128 ![0] h w (ix2 e q) = w (ix1 e) :=
  broadcastInDim_apply _ _ _ _ _ fun a => by match a with | ⟨0, _⟩ => rfl

/-- The `and` over the one column of an [800000, 1] mask, from 1, is 1 at e when the mask is 1 at (e, 0). -/
theorem reduce_col_one (x : IVec S800000x1 1) (init : IVec S_ 1) (hinit : init ix0 = 1#1)
    (h : S800000x1.ReducesTo [1] S800000) (hu : 0 < S_.numel) (e : Fin 800000)
    (hx : x (ix2 e 0) = 1#1) : Host.reduce IntOp.andi x init h hu (ix1 e) = 1#1 := by
  rw [Host.reduce_eq_foldl, show Shape.Idx.first hu = ix0 from eq_ix0 _, hinit]
  refine foldl_andi_ones x _ fun i hi => ?_
  have hd : h.drop i = ix1 e := by simpa using (List.mem_filter.mp hi).2
  obtain ⟨a, b, rfl⟩ : ∃ (a : Fin 800000) (b : Fin 1), i = ix2 a b := ⟨i 0, i 1, eq_ix2 i⟩
  have hv : ((h.drop (ix2 a b)) 0 : Nat) = (ix2 a b) 0 := Shape.ReducesTo.drop_apply_val_of_eq h (ix2 a b) 0 0
  rw [hd] at hv
  have ha : a = e := Fin.ext hv.symm
  have hb : b = 0 := Subsingleton.elim _ _
  rw [ha, hb]
  exact hx

/-! ## The gather with a fill, as one function of the rows and the source numbers -/

/-- The source numbers wrapped: a negative number gets 50000 added. -/
def wrap (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- A vector of row numbers as the column a gather or a scatter takes. -/
def col (w : IVec S800000 32) : IVec S800000x1 32 := broadcastInDim S800000x1 ![0] bcast_S800000_S800000x1_0 w

/-- Per edge, the bit "the row number lies in [0, 49999]": both comparisons, and-ed, reduced over the one column. -/
def inside (w5 : IVec S800000x1 32) : IVec S800000 1 :=
  Host.reduce IntOp.andi
    (andi (cmpi .sge w5 (broadcastInDim S800000x1 ![] bcast_S_S800000x1 (constantI S_ 32 0#32)))
      (cmpi .sle w5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `x` gathered at the wrapped source numbers, a row whose number is outside the node range filled. -/
def takeFill (x : FVec Ideal S50000x128 .f32) (s : IVec S800000 32) : FVec Ideal S800000x128 .f32 :=
  select (broadcastInDim S800000x128 ![0] bcast_S800000_S800000x128_0 (inside (col (wrap s))))
    (Host.gather gather_S50000x128_S800000x1_S800000x128_1_0_n_n_0_1_1128 x (col (wrap s)))
    (broadcastInDim S800000x128 ![] bcast_S_S800000x128 (constant (F := Ideal) S_ .f32 0x7FC00000#32))

/-- A source number that is a node is not wrapped. -/
theorem wrap_apply (s : IVec S800000 32) (e : Fin 800000) (h0 : 0 ≤ (s (ix1 e)).toInt) (h1 : (s (ix1 e)).toInt < 50000) :
    wrap s (ix1 e) = s (ix1 e) := by
  unfold wrap
  rw [select_apply]
  show Scalar.select (IntOp.cmpi .slt (s (ix1 e)) 0#32) _ _ = _
  rw [(node_bits _ h0 h1).1, select_zero]

/-- A source number that is a node is inside the node range. -/
theorem inside_apply (s : IVec S800000 32) (e : Fin 800000) (h0 : 0 ≤ (s (ix1 e)).toInt) (h1 : (s (ix1 e)).toInt < 50000) :
    inside (col (wrap s)) (ix1 e) = 1#1 := by
  unfold inside
  refine reduce_col_one _ _ rfl _ _ e ?_
  show IntOp.andi (IntOp.cmpi .sge (col (wrap s) (ix2 e 0)) 0#32) (IntOp.cmpi .sle (col (wrap s) (ix2 e 0)) 49999#32) = 1#1
  have hc : col (wrap s) (ix2 e 0) = s (ix1 e) := by
    unfold col
    rw [col_apply, wrap_apply s e h0 h1]
  rw [hc, (node_bits _ h0 h1).2.1, (node_bits _ h0 h1).2.2]
  decide

/-- Entry (e, q) of the gather with a fill, when source number e is a node: the row of `x` that number names. -/
theorem takeFill_apply (x : FVec Ideal S50000x128 .f32) (s : IVec S800000 32) (e : Fin 800000) (q : Fin 128)
    (h0 : 0 ≤ (s (ix1 e)).toInt) (h1 : (s (ix1 e)).toInt < 50000) :
    takeFill x s (ix2 e q) = x (ix2 (RowOps.clampRow 50000 (by decide) (s (ix1 e))) q) := by
  unfold takeFill
  rw [select_apply, rows_apply, inside_apply s e h0 h1, select_one]
  have hg : gather_S50000x128_S800000x1_S800000x128_1_0_n_n_0_1_1128
      = RowOps.gatherDims 50000 800000 128 gather_S50000x128_S800000x1_S800000x128_1_0_n_n_0_1_1128_wf := rfl
  rw [hg, RowOps.gather_apply (by decide)]
  have hc : col (wrap s) (ix2 e 0) = s (ix1 e) := by
    unfold col
    rw [col_apply, wrap_apply s e h0 h1]
  rw [hc]

variable (m : (ℓ : Loc nD τ sig) → Buf (Elt Ideal) ℓ) (ρ : Dev nD → PrngReg)

/-! ## The arrays of the run, at their literal types -/

/-- The edge index as launched. -/
abbrev edgeIdx (c : Dev nD) : IVec S2x800000 32 := m ((c : Thread nD τ).loc main_arg1)
/-- The source numbers (row 0 of the edge index, as a vector) at the first launch's exit. -/
abbrev srcNum (c : Dev nD) : IVec S800000 32 := W2 m ρ c (Proc.devRef .tc main_v1)
/-- The projected nodes at the first launch's exit. -/
abbrev projRows (c : Dev nD) : FVec Ideal S50000x128 .f32 := W2 m ρ c (Proc.devRef .tc main_v4)
/-- The gathered rows at the second launch's entry. -/
abbrev gathered (c : Dev nD) : FVec Ideal S800000x128 .f32 := V4 m ρ c main_v5

/-- The source numbers are row 0 of the edge index: the slice and the reshape before the first launch wrote them, and
    the first launch does not touch them. -/
theorem srcNum_eq (c : Dev nD) :
    srcNum m ρ c = shapeCast S800000 (extractStridedSlice S1x800000 ![0, 0] (edgeIdx m c) slices_S2x800000_S1x800000_0_0)
      shapeCasts_S1x800000_S800000 := by
  refine (W2_of_ne m ρ c main_v1 (by decide)).trans ?_
  show StableHlo.after hostOps0 (W0 m ρ c) (Proc.devRef .tc main_v1) = _
  after_results
  rfl

theorem srcNum_apply (c : Dev nD) (e : Fin 800000) : srcNum m ρ c (ix1 e) = edgeIdx m c (ix2 0 e) := by
  rw [srcNum_eq, shapeCast_1a_a_apply, slice2_axis0_apply 0 _ _ (0 : Fin 1) e (0 : Fin 2) rfl]

/-! ## The outlined take, as one function of the two buffers it reads

The take is a module-local function: its operations are stated over typed references. Read at the typed references, the
line's last result is the fill selection over the gather, the mask and the fill value, each the operations' function of
the source numbers and the projected rows the line found. -/

section Take

open Idealize.ShloMosaic.StableHlo.TypedRead

/-- The three buffers of the take that the rest of the run names, read at their typed references. -/
theorem rd_gathered (G : Valuation τ sig (Elt Ideal)) :
    rd G (.of main_v5 : StableHlo.TRef sig ⟨S800000x128, .f32⟩) = G (Proc.devRef .tc main_v5) := rfl
theorem rd_projected (G : Valuation τ sig (Elt Ideal)) :
    rd G (.of main_v4 : StableHlo.TRef sig ⟨S50000x128, .f32⟩) = G (Proc.devRef .tc main_v4) := rfl
theorem rd_sources (G : Valuation τ sig (Elt Ideal)) :
    rd G (.of main_v1 : StableHlo.TRef sig ⟨S800000, .i32⟩) = G (Proc.devRef .tc main_v1) := rfl

/-- From any contents, the take leaves in its result buffer the gather with a fill of the projected rows at the source
    numbers it found. -/
theorem take_result (G : Valuation τ sig (Elt Ideal)) :
    StableHlo.after (hostOps1 (F := Ideal)) G (Proc.devRef .tc main_v5)
      = takeFill (G (Proc.devRef .tc main_v4)) (G (Proc.devRef .tc main_v1)) := by
  refine (rd_gathered (StableHlo.after hostOps1 G)).symm.trans ?_
  typed_results
  rw [rd_projected, rd_sources]
  rfl

end Take

/-- The gathered rows are the gather with a fill of the projected nodes at the source numbers: the operations of the
    outlined take wrote them, and the reshapes after it write other buffers. -/
theorem gathered_eq (c : Dev nD) : gathered m ρ c = takeFill (projRows m ρ c) (srcNum m ρ c) := by
  have h : StableHlo.after hostOps1_1 (StableHlo.after hostOps1 (W2 m ρ c)) (Proc.devRef .tc main_v5)
      = StableHlo.after hostOps1 (W2 m ρ c) (Proc.devRef .tc main_v5) := by
    generalize StableHlo.after hostOps1 (W2 m ρ c) = X
    after_results
  exact h.trans (take_result (W2 m ρ c))

/-- The second launch's gathered operand at (e, q): the first launch's output at the source node of edge e. -/
theorem V4_v5_apply (c : Dev nD) (hsrc : Cert.Spec.InRange (m ((c : Thread nD τ).loc main_arg1))) (e : Fin 800000) (q : Fin 128) :
    V4 m ρ c main_v5 (ix2 e q)
      = (dat0 (V1 m ρ) c).arrAt 2 cfg0.N (ix2 (Cert.Spec.srcRow (m ((c : Thread nD τ).loc main_arg1)) e) q) := by
  have hs := srcNum_apply m ρ c e
  have h0 : 0 ≤ (srcNum m ρ c (ix1 e)).toInt := by rw [hs]; exact (hsrc e).1
  have h1 : (srcNum m ρ c (ix1 e)).toInt < 50000 := by rw [hs]; exact (hsrc e).2
  show gathered m ρ c (ix2 e q) = _
  rw [gathered_eq, takeFill_apply _ _ e q h0 h1, hs]
  exact congrFun (W2_arr m ρ c 2) _

/-! ## The scatter-add onto zero, as one function of the target numbers and the update rows -/

/-- The update rows `u` added, row by row, onto a zero [50000, 128] array at the target numbers `d`. -/
def scatterZero (d : IVec S800000 32) (u : FVec Ideal S800000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d) u

/-- Entry (p, j) of the scatter-add onto zero: zero plus column j of the update rows whose target number is p. -/
theorem scatterZero_apply (d : IVec S800000 32) (u : FVec Ideal S800000x128 .f32) (p : Fin 50000) (j : Fin 128) :
    scatterZero d u (ix2 p j)
      = Cert.Spec.zero + ∑ e ∈ Finset.univ.filter (fun e : Fin 800000 => (d (ix1 e)).toInt = (p.val : Int)), u (ix2 e j) := by
  unfold scatterZero
  have hg : scatter_S50000x128_S800000x1_S800000x128_1_0_0_1
      = RowOps.scatterDims 50000 800000 128 scatter_S50000x128_S800000x1_S800000x128_1_0_0_1_wf := rfl
  have hz : broadcastInDim S50000x128 ![] bcast_S_S50000x128 (constant (F := Ideal) S_ .f32 0x00000000#32) (ix2 p j)
      = Cert.Spec.zero := rfl
  rw [hg, RowOps.scatterAdd_apply, hz]
  refine congrArg (Cert.Spec.zero + ·) ?_
  refine Finset.sum_congr (Finset.filter_congr fun e _ => ?_) fun _ _ => rfl
  rw [col_apply]

/-- The target numbers (row 1 of the edge index, as a vector) at the second launch's exit. -/
abbrev dstNum (c : Dev nD) : IVec S800000 32 := W5 m ρ c (Proc.devRef .tc main_v3)
/-- The messages at the second launch's exit. -/
abbrev msgRows (c : Dev nD) : FVec Ideal S800000x128 .f32 := W5 m ρ c (Proc.devRef .tc main_v9)
/-- The aggregate at the third launch's entry. -/
abbrev aggRows (c : Dev nD) : FVec Ideal S50000x128 .f32 := V6 m ρ c main_v12

/-- The target numbers are row 1 of the edge index: the slice and the reshape before the first launch wrote them, and
    neither launch nor the operations between touch them. -/
theorem dstNum_eq (c : Dev nD) :
    dstNum m ρ c = shapeCast S800000 (extractStridedSlice S1x800000 ![1, 0] (edgeIdx m c) slices_S2x800000_S1x800000_1_0)
      shapeCasts_S1x800000_S800000 := by
  refine (W5_of_ne m ρ c main_v3 (by decide)).trans ?_
  have h42 : W4 m ρ c (Proc.devRef .tc main_v3) = W2 m ρ c (Proc.devRef .tc main_v3) := by
    show StableHlo.after hostOps1_1 (StableHlo.after hostOps1 (W2 m ρ c)) (Proc.devRef .tc main_v3) = _
    generalize W2 m ρ c = X
    after_results_simp
  refine h42.trans ?_
  refine (W2_of_ne m ρ c main_v3 (by decide)).trans ?_
  show StableHlo.after hostOps0 (W0 m ρ c) (Proc.devRef .tc main_v3) = _
  after_results
  rfl

theorem dstNum_apply (c : Dev nD) (e : Fin 800000) : dstNum m ρ c (ix1 e) = edgeIdx m c (ix2 1 e) := by
  rw [dstNum_eq, shapeCast_1a_a_apply, slice2_axis0_apply 1 _ _ (0 : Fin 1) e (1 : Fin 2) rfl]

/-- From any contents, the operations before the third launch leave in the aggregate's buffer the scatter-add onto zero
    of the message rows at the target numbers they found. -/
theorem scatter_result (G : Valuation τ sig (Elt Ideal)) :
    StableHlo.after (hostOps2 (F := Ideal)) G (Proc.devRef .tc main_v12)
      = scatterZero (G (Proc.devRef .tc main_v3)) (G (Proc.devRef .tc main_v9)) := by
  after_results
  rfl

/-- The aggregate is the scatter-add onto zero of the messages at the target numbers. -/
theorem aggRows_eq (c : Dev nD) : aggRows m ρ c = scatterZero (dstNum m ρ c) (msgRows m ρ c) :=
  scatter_result (W5 m ρ c)

/-- The third launch's aggregate operand at (p, j): the scatter-add of the second launch's output rows. -/
theorem V6_v12_apply (c : Dev nD) (p : Fin 50000) (j : Fin 128) :
    V6 m ρ c main_v12 (ix2 p j)
      = Cert.Spec.scat (m ((c : Thread nD τ).loc main_arg1)) (fun e j => (dat1 (V4 m ρ) c).arrAt 7 cfg1.N (ix2 e j)) p j := by
  show aggRows m ρ c (ix2 p j) = _
  rw [aggRows_eq, scatterZero_apply]
  unfold Cert.Spec.scat
  have hu : msgRows m ρ c = (dat1 (V4 m ρ) c).arrAt 7 cfg1.N := W5_arr m ρ c 7
  rw [hu]
  refine congrArg (Cert.Spec.zero + ·) ?_
  refine Finset.sum_congr (Finset.filter_congr fun e _ => ?_) fun _ _ => rfl
  rw [dstNum_apply]

end Cert.KernelIdeal.GlueTake

end
-- ==== Proof.KerValue.lean ====
/-
  The kernel program's result, entry by entry, is the block's function of the thirteen argument arrays.

  The three launches and the host operations between them compose: the second launch's gathered operand is the first
  launch's output at each edge's source node; its output, the messages, is scatter-added onto the target nodes; the third
  launch updates each node's aggregate. Entry by entry each stage is the specification's stage, the arguments being read
  where each launch finds them.
-/
import proofs.«424310_j41300405518873_1_alg».proof.Proof.Region0
import proofs.«424310_j41300405518873_1_alg».proof.Proof.Region1
import proofs.«424310_j41300405518873_1_alg».proof.Proof.Region2
import proofs.«424310_j41300405518873_1_alg».proof.Proof.GlueArgs
import proofs.«424310_j41300405518873_1_alg».proof.Proof.GlueTake

noncomputable section

open scoped BigOperators

namespace Cert.KernelIdeal.KerValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-- The second launch's output is the message array: at `(e, j)` the projected source node's entry times the filter
    entry times the cutoff. -/
theorem msg_eq (c : Dev nD) (hsrc : Cert.Spec.InRange (m ((c : Thread nD τ).loc main_arg1))) (e : Fin 800000) (j : Fin 128) :
    (dat1 (V4 m ρ) c).arrAt 7 cfg1.N (ix2 e j)
      = Cert.Spec.msg (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) e j := by
  rw [Cert.KernelIdeal.Region1.final (V4 m ρ) c e j]
  unfold Cert.Spec.msg
  rw [Cert.KernelIdeal.GlueTake.V4_v5_apply m ρ c hsrc e j, Cert.KernelIdeal.Region0.final (V1 m ρ) c _ j,
    Cert.KernelIdeal.Glue.V1_arg0 m ρ c, Cert.KernelIdeal.Glue.V1_arg8 m ρ c, Cert.KernelIdeal.Glue.V4_arg3 m ρ c,
    Cert.KernelIdeal.Glue.V4_arg4 m ρ c, Cert.KernelIdeal.Glue.V4_arg6 m ρ c, Cert.KernelIdeal.Glue.V4_v6_apply m ρ c e]
  simp only [Cert.KernelIdeal.Glue.V4_v7_apply m ρ c, Cert.KernelIdeal.Glue.V4_v8_apply m ρ c]

/-- The third launch's aggregate operand is the scatter-add of the messages. -/
theorem agg_eq (c : Dev nD) (hsrc : Cert.Spec.InRange (m ((c : Thread nD τ).loc main_arg1))) (p : Fin 50000) (j : Fin 128) :
    V6 m ρ c main_v12 (ix2 p j)
      = Cert.Spec.agg (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) p j := by
  rw [Cert.KernelIdeal.GlueTake.V6_v12_apply m ρ c p j]
  unfold Cert.Spec.agg
  congr 1
  funext e j
  exact msg_eq m ρ c hsrc e j

/-- The program's result buffer, entry by entry. -/
theorem ker_eq (c : Dev nD) (hsrc : Cert.Spec.InRange (m ((c : Thread nD τ).loc main_arg1))) (p : Fin 50000) (q : Fin 128) :
    W7 m ρ c (Proc.devRef .tc main_v15) (ix2 p q)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) p q := by
  rw [Cert.KernelIdeal.Glue.W7_v15 m ρ c, Cert.KernelIdeal.Region2.final (V6 m ρ) c p q]
  unfold Cert.Spec.out
  have hagg : (fun p j => V6 m ρ c main_v12 (ix2 p j))
      = Cert.Spec.agg (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) := by
    funext p j; exact agg_eq m ρ c hsrc p j
  rw [hagg, Cert.KernelIdeal.Glue.V6_arg9 m ρ c, Cert.KernelIdeal.Glue.V6_arg11 m ρ c]
  simp only [Cert.KernelIdeal.Glue.V6_v13_apply m ρ c, Cert.KernelIdeal.Glue.V6_v14_apply m ρ c]

end Cert.KernelIdeal.KerValue

end
-- ==== Proof.RefValue.lean ====
/-
  The reference program's result, entry by entry, is the block's function of the thirteen argument arrays.

  The reference is one straight line of host operations on whole arrays; read at an entry (p, q) each stage is the same
  stage of the specification: the three matrix products are plain sums over the contracted feature, the broadcasts keep
  the coordinate they keep, the gather reads the projected row of the edge's source node (a node number that is in range
  is neither wrapped nor clamped), and the scatter-add sums the messages of the edges whose target is p.
-/
import proofs.«424310_j41300405518873_1_alg».proof.Proof.Gen.ReferenceIdeal.Read
import proofs.«424310_j41300405518873_1_alg».proof.Proof.Spec
import proofs.«424310_j41300405518873_1_alg».proof.Proof.LibRowOps
import Idealize.ShloMosaic.Lib.StableHlo.Predicate

noncomputable section

open scoped BigOperators

namespace Cert.RefValue

open Cert.ReferenceIdeal Cert.ReferenceIdeal.Gen Cert.ReferenceIdeal.Read Idealize.ShloMosaic Idealize.ShloMosaic.ValueIdx Idealize.ShloMosaic.TcCoe Idealize.SL.Sem

/-! ## The arrays, by their literal types -/

/-- A single-precision array of the given shape, entry by entry over the extended reals. -/
abbrev A (s : Shape) : Type := (⟨s, .f32⟩ : BufTy).Contents (Elt Ideal)

variable (x0 : A S50000x128) (x1 : (⟨S2x800000, .i32⟩ : BufTy).Contents (Elt Ideal)) (x2 : A S800000)
  (x3 : A S800000x50) (x4 : A S50x128) (x5 : A S128) (x6 : A S128x128) (x7 : A S128) (x8 x9 : A S128x128)
  (x10 : A S128) (x11 : A S128x128) (x12 : A S128)

/-! ## The node projection -/

/-- The first matrix product at `(r, q)` is the sum over the contracted feature. -/
theorem proj_eq (r : Fin 50000) (q : Fin 128) :
    val_main_v21 (F := Ideal) x0 x8 (ix2 r q) = Cert.Spec.proj x0 x8 r q := by
  rw [val_main_v21_apply]
  unfold Cert.Spec.proj
  refine Finset.sum_congr rfl fun k _ => ?_
  have el : lidx_main_v21 (ix2 r q) k = ix2 r k := funext fun a => Fin.ext (by match a with | ⟨0, _⟩ => rfl | ⟨1, _⟩ => rfl)
  have er : ridx_main_v21 (ix2 r q) k = ix2 k q := funext fun a => Fin.ext (by match a with | ⟨0, _⟩ => rfl | ⟨1, _⟩ => rfl)
  rw [el, er]

/-! ## The cosine cutoff -/

/-- The cutoff stage at edge `e` is the cutoff of that edge's length: the three splat constants are the words
    of `π / 10`, `1` and `½`. -/
theorem cutoff_eq (e : Fin 800000) :
    val_main_v6 (F := Ideal) x2 (ix1 e) = Cert.Spec.cutoff (x2 (ix1 e)) := by
  rw [val_main_v6_apply, val_main_v5_apply, val_main_cst_1_apply, val_main_v4_apply, val_main_v2_apply,
    val_main_v1_apply, val_main_v0_apply, val_main_cst_apply, val_main_v3_apply, val_main_cst_0_apply]
  rfl

/-! ## The shifted softplus -/

/-- Over the extended reals nothing differs from itself: the comparison `y ≠ y` answers the bit 0, so the
    softplus's guard always takes its second branch. -/
theorem une_self (y : Ideal .f32) : FloatOps.cmpf (F := Ideal) .une y y = 0#1 := by
  show BitVec.ofBool (decide (y ≠ y)) = 0#1
  simp

/-- The first softplus call followed by the subtraction of the word of `ln 2` is the shifted softplus of its
    operand, entry by entry. -/
theorem softplus0_eq (i : S800000x128.Idx) :
    val_main_v13 (F := Ideal) x3 x4 x5 i = Cert.Spec.ssp (val_main_v10 (F := Ideal) x3 x4 x5 i) := by
  rw [val_main_v13_apply, val_main_v11_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v12_apply,
    val_main_cst_2_apply, une_self, select_zero]
  generalize val_main_v10 (F := Ideal) x3 x4 x5 i = z
  rfl

/-- The second softplus call followed by the subtraction of the word of `ln 2`, likewise. -/
theorem softplus1_eq (i : S50000x128.Idx) :
    val_main_v43 (F := Ideal) x0 x1 x2 x3 x4 x5 x6 x7 x8 x9 x10 i
      = Cert.Spec.ssp (val_main_v40 (F := Ideal) x0 x1 x2 x3 x4 x5 x6 x7 x8 x9 x10 i) := by
  rw [val_main_v43_apply, val_main_v41_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v42_apply,
    val_main_cst_5_apply, une_self, select_zero]
  generalize val_main_v40 (F := Ideal) x0 x1 x2 x3 x4 x5 x6 x7 x8 x9 x10 i = z
  rfl

/-! ## The filter network -/

/-- The hidden layer at `(e, k)`: the product with `w1` is the sum over the 50 edge attributes, the bias row is
    broadcast along the edges. -/
theorem hidden_eq (e : Fin 800000) (k : Fin 128) :
    val_main_v13 (F := Ideal) x3 x4 x5 (ix2 e k) = Cert.Spec.hidden x3 x4 (fun k => x5 (ix1 k)) e k := by
  rw [softplus0_eq, val_main_v10_apply, val_main_v7_apply, val_main_v9_apply, val_main_v8_apply]
  unfold Cert.Spec.hidden
  have eb : idx_main_v8 (idx_main_v9 (ix2 e k)) = ix1 k := funext fun a => Fin.ext (by match a with | ⟨0, _⟩ => rfl)
  have es : ∀ j : Fin 50, x3 (lidx_main_v7 (ix2 e k) j) * x4 (ridx_main_v7 (ix2 e k) j)
      = x3 (ix2 e j) * x4 (ix2 j k) := fun j => by
    have el : lidx_main_v7 (ix2 e k) j = ix2 e j := funext fun a => Fin.ext (by match a with | ⟨0, _⟩ => rfl | ⟨1, _⟩ => rfl)
    have er : ridx_main_v7 (ix2 e k) j = ix2 j k := funext fun a => Fin.ext (by match a with | ⟨0, _⟩ => rfl | ⟨1, _⟩ => rfl)
    rw [el, er]
  rw [eb, Finset.sum_congr rfl fun j _ => es j]
  rfl

/-- The filter network's output at `(e, q)`, before the cutoff. -/
theorem filt_eq (e : Fin 800000) (q : Fin 128) :
    val_main_v17 (F := Ideal) x3 x4 x5 x6 x7 (ix2 e q)
      = Cert.Spec.filt x3 x4 (fun k => x5 (ix1 k)) x6 (fun k => x7 (ix1 k)) e q := by
  rw [val_main_v17_apply, val_main_v14_apply, val_main_v16_apply, val_main_v15_apply]
  unfold Cert.Spec.filt
  have eb : idx_main_v15 (idx_main_v16 (ix2 e q)) = ix1 q := funext fun a => Fin.ext (by match a with | ⟨0, _⟩ => rfl)
  have es : ∀ k : Fin 128, val_main_v13 (F := Ideal) x3 x4 x5 (lidx_main_v14 (ix2 e q) k) * x6 (ridx_main_v14 (ix2 e q) k)
      = Cert.Spec.hidden x3 x4 (fun k => x5 (ix1 k)) e k * x6 (ix2 k q) := fun k => by
    have el : lidx_main_v14 (ix2 e q) k = ix2 e k := funext fun a => Fin.ext (by match a with | ⟨0, _⟩ => rfl | ⟨1, _⟩ => rfl)
    have er : ridx_main_v14 (ix2 e q) k = ix2 k q := funext fun a => Fin.ext (by match a with | ⟨0, _⟩ => rfl | ⟨1, _⟩ => rfl)
    rw [el, er, hidden_eq]
  rw [eb, Finset.sum_congr rfl fun k _ => es k]
  rfl

/-- The filter times the cutoff at `(e, q)`: the cutoff column is broadcast along the features. -/
theorem weighted_eq (e : Fin 800000) (q : Fin 128) :
    val_main_v20 (F := Ideal) x2 x3 x4 x5 x6 x7 (ix2 e q)
      = Cert.Spec.filt x3 x4 (fun k => x5 (ix1 k)) x6 (fun k => x7 (ix1 k)) e q * Cert.Spec.cutoff (x2 (ix1 e)) := by
  rw [val_main_v20_apply, val_main_v19_apply, val_main_v18_apply, filt_eq]
  have eb : idx_main_v18 (idx_main_v19 (ix2 e q)) = ix1 e := funext fun a => Fin.ext (by match a with | ⟨0, _⟩ => rfl)
  rw [eb, cutoff_eq]
  rfl

/-! ## The source column and the gather -/

/-- A word that is nonnegative read signed is not below zero. -/
theorem slt_zero_of_nonneg (s : BitVec 32) (h : 0 ≤ s.toInt) : IntOp.cmpi .slt s 0#32 = 0#1 := by
  unfold IntOp.cmpi
  show BitVec.ofBool (s.slt 0#32) = 0#1
  have h0 : (0#32 : BitVec 32).toInt = 0 := by decide
  have hf : s.slt 0#32 = false := by
    unfold BitVec.slt
    rw [h0]
    exact decide_eq_false (by omega)
  rw [hf]
  rfl

/-- The column of start indices at edge `e` is row 0 of the edge index at `e`: the slice and the reshape keep the
    entry, and a node number that is nonnegative is not wrapped. -/
theorem srcCol_eq (hsrc : Cert.Spec.InRange x1) (e : Fin 800000) :
    val_main_v29 (F := Ideal) x1 (ix2 e (0 : Fin 1)) = x1 (ix2 (0 : Fin 2) e) := by
  rw [val_main_v29_apply, val_main_v28_apply, val_main_v25_apply, val_main_v27_apply, val_main_v23_apply,
    val_main_v22_apply, val_main_v24_apply, val_main_c_apply, val_main_v26_apply, val_main_c_3_apply]
  have ei : idx_main_v22 (idx_main_v23 (idx_main_v29 (ix2 e (0 : Fin 1)))) = ix2 (0 : Fin 2) e :=
    funext fun a => Fin.ext (by
      match a with
      | ⟨0, _⟩ => rfl
      | ⟨1, _⟩ => exact Nat.mod_eq_of_lt e.isLt)
  rw [ei, slt_zero_of_nonneg _ (hsrc e).1, select_zero]

/-- The gathered row at `(e, j)` is the projection at the edge's source node. -/
theorem gathered_eq (hsrc : Cert.Spec.InRange x1) (e : Fin 800000) (j : Fin 128) :
    val_main_v30 (F := Ideal) x0 x1 x8 (ix2 e j) = Cert.Spec.proj x0 x8 (Cert.Spec.srcRow x1 e) j := by
  unfold val_main_v30
  show Host.gather (RowOps.gatherDims 50000 800000 128 Facts₀.gather_S50000x128_S800000x1_S800000x128_1_0_n_n_0_1_1128_wf)
      (val_main_v21 (F := Ideal) x0 x8) (val_main_v29 (F := Ideal) x1) (ix2 e j) = _
  rw [RowOps.gather_apply (by decide : 0 < 50000), srcCol_eq x1 hsrc, proj_eq]
  rfl

/-- The message of edge `e` at feature `j`. -/
theorem msg_eq (hsrc : Cert.Spec.InRange x1) (e : Fin 800000) (j : Fin 128) :
    val_main_v31 (F := Ideal) x0 x1 x2 x3 x4 x5 x6 x7 x8 (ix2 e j)
      = Cert.Spec.msg x0 x1 x2 x3 x4 x5 x6 x7 x8 e j := by
  rw [val_main_v31_apply, gathered_eq x0 x1 x8 hsrc, weighted_eq]
  rfl

/-! ## The scatter-add -/

/-- The column of targets at edge `e` is row 1 of the edge index at `e`. -/
theorem tgtCol_eq (e : Fin 800000) :
    val_main_v35 (F := Ideal) x1 (ix2 e (0 : Fin 1)) = x1 (ix2 (1 : Fin 2) e) := by
  rw [val_main_v35_apply, val_main_v33_apply, val_main_v32_apply]
  have ei : idx_main_v32 (idx_main_v33 (idx_main_v35 (ix2 e (0 : Fin 1)))) = ix2 (1 : Fin 2) e :=
    funext fun a => Fin.ext (by
      match a with
      | ⟨0, _⟩ => rfl
      | ⟨1, _⟩ => exact Nat.mod_eq_of_lt e.isLt)
  rw [ei]

/-- The aggregate at `(p, j)`: the operand is the zero word everywhere, and the update rows that land on `p` are
    the messages of the edges whose target is `p`. -/
theorem agg_eq (hsrc : Cert.Spec.InRange x1) (p : Fin 50000) (j : Fin 128) :
    val_main_v36 (F := Ideal) x0 x1 x2 x3 x4 x5 x6 x7 x8 (ix2 p j)
      = Cert.Spec.agg x0 x1 x2 x3 x4 x5 x6 x7 x8 p j := by
  unfold val_main_v36
  show Host.scatterAdd (F := Ideal)
      (RowOps.scatterDims 50000 800000 128 Facts₀.scatter_S50000x128_S800000x1_S800000x128_1_0_0_1_wf)
      (val_main_v34 (F := Ideal)) (val_main_v35 (F := Ideal) x1)
      (val_main_v31 (F := Ideal) x0 x1 x2 x3 x4 x5 x6 x7 x8) (ix2 p j) = _
  rw [RowOps.scatterAdd_apply, val_main_v34_apply, val_main_cst_4_apply]
  unfold Cert.Spec.agg Cert.Spec.scat
  have hz : FloatOps.ofBits (F := Ideal) .f32 0x00000000#32 = Cert.Spec.zero := rfl
  have hs : (∑ e ∈ Finset.univ.filter (fun e : Fin 800000 =>
        (val_main_v35 (F := Ideal) x1 (ix2 e (0 : Fin 1))).toInt = (p.val : Int)),
        val_main_v31 (F := Ideal) x0 x1 x2 x3 x4 x5 x6 x7 x8 (ix2 e j))
      = ∑ e ∈ Finset.univ.filter (fun e : Fin 800000 => (x1 (ix2 (1 : Fin 2) e)).toInt = (p.val : Int)),
        Cert.Spec.msg x0 x1 x2 x3 x4 x5 x6 x7 x8 e j :=
    Finset.sum_congr (Finset.filter_congr fun e _ => by rw [tgtCol_eq])
      fun e _ => msg_eq x0 x1 x2 x3 x4 x5 x6 x7 x8 hsrc e j
  rw [hz, hs]

/-! ## The node update -/

/-- The argument of the second softplus at `(p, k)`. -/
theorem pre_eq (hsrc : Cert.Spec.InRange x1) (p : Fin 50000) (k : Fin 128) :
    val_main_v40 (F := Ideal) x0 x1 x2 x3 x4 x5 x6 x7 x8 x9 x10 (ix2 p k)
      = (∑ j : Fin 128, Cert.Spec.agg x0 x1 x2 x3 x4 x5 x6 x7 x8 p j * x9 (ix2 j k)) + x10 (ix1 k) := by
  rw [val_main_v40_apply, val_main_v37_apply, val_main_v39_apply, val_main_v38_apply]
  have eb : idx_main_v38 (idx_main_v39 (ix2 p k)) = ix1 k := funext fun a => Fin.ext (by match a with | ⟨0, _⟩ => rfl)
  have es : ∀ j : Fin 128, val_main_v36 (F := Ideal) x0 x1 x2 x3 x4 x5 x6 x7 x8 (lidx_main_v37 (ix2 p k) j)
        * x9 (ridx_main_v37 (ix2 p k) j)
      = Cert.Spec.agg x0 x1 x2 x3 x4 x5 x6 x7 x8 p j * x9 (ix2 j k) := fun j => by
    have el : lidx_main_v37 (ix2 p k) j = ix2 p j := funext fun a => Fin.ext (by match a with | ⟨0, _⟩ => rfl | ⟨1, _⟩ => rfl)
    have er : ridx_main_v37 (ix2 p k) j = ix2 j k := funext fun a => Fin.ext (by match a with | ⟨0, _⟩ => rfl | ⟨1, _⟩ => rfl)
    rw [el, er, agg_eq x0 x1 x2 x3 x4 x5 x6 x7 x8 hsrc]
  rw [eb, Finset.sum_congr rfl fun j _ => es j]
  rfl

/-- The node update at `(p, q)` on the aggregate. -/
theorem node_eq (hsrc : Cert.Spec.InRange x1) (p : Fin 50000) (q : Fin 128) :
    val_main_v47 (F := Ideal) x0 x1 x2 x3 x4 x5 x6 x7 x8 x9 x10 x11 x12 (ix2 p q)
      = Cert.Spec.node (Cert.Spec.agg x0 x1 x2 x3 x4 x5 x6 x7 x8) x9 (fun k => x10 (ix1 k)) x11
          (fun k => x12 (ix1 k)) p q := by
  rw [val_main_v47_apply, val_main_v44_apply, val_main_v46_apply, val_main_v45_apply]
  unfold Cert.Spec.node
  have eb : idx_main_v45 (idx_main_v46 (ix2 p q)) = ix1 q := funext fun a => Fin.ext (by match a with | ⟨0, _⟩ => rfl)
  have es : ∀ k : Fin 128, val_main_v43 (F := Ideal) x0 x1 x2 x3 x4 x5 x6 x7 x8 x9 x10 (lidx_main_v44 (ix2 p q) k)
        * x11 (ridx_main_v44 (ix2 p q) k)
      = Cert.Spec.ssp ((∑ j : Fin 128, Cert.Spec.agg x0 x1 x2 x3 x4 x5 x6 x7 x8 p j * x9 (ix2 j k)) + x10 (ix1 k))
        * x11 (ix2 k q) := fun k => by
    have el : lidx_main_v44 (ix2 p q) k = ix2 p k := funext fun a => Fin.ext (by match a with | ⟨0, _⟩ => rfl | ⟨1, _⟩ => rfl)
    have er : ridx_main_v44 (ix2 p q) k = ix2 k q := funext fun a => Fin.ext (by match a with | ⟨0, _⟩ => rfl | ⟨1, _⟩ => rfl)
    rw [el, er, softplus1_eq, pre_eq x0 x1 x2 x3 x4 x5 x6 x7 x8 x9 x10 hsrc]
  rw [eb, Finset.sum_congr rfl fun k _ => es k]
  rfl

/-- The reference's result at `(p, q)`. -/
theorem ref_eq (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal))
    (x3 : (⟨Cert.ReferenceIdeal.S800000x50, .f32⟩ : BufTy).Contents (Elt Ideal)) (x4 : (⟨Cert.ReferenceIdeal.S50x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal)) (x8 x9 : (⟨Cert.ReferenceIdeal.S128x128, .f32⟩ : BufTy).Contents (Elt Ideal))
    (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128, .f32⟩ : BufTy).Contents (Elt Ideal))
    (hsrc : Cert.Spec.InRange x1) (p : Fin 50000) (q : Fin 128) :
    val_main_v47 (F := Ideal) x0 x1 x2 x3 x4 x5 x6 x7 x8 x9 x10 x11 x12 (ix2 p q)
      = Cert.Spec.out x0 x1 x2 x3 x4 x5 x6 x7 x8 x9 x10 x11 x12 p q := by
  exact (node_eq x0 x1 x2 x3 x4 x5 x6 x7 x8 x9 x10 x11 x12 hsrc p q).trans rfl

end Cert.RefValue

end
-- ==== Proof.PreIdx.lean ====
/-
  What the precondition says of the edge index: every source node number (row 0) is a node.

  The precondition is a conjunction of "every entry is finite" per float input and, last, "every entry s of row 0 of the
  edge index has 0 ≤ s and s < 50000" as signed 32-bit words, each an all-reduction by ∧ of a pointwise test.
-/
import proofs.«424310_j41300405518873_1_alg».proof.Defs
import proofs.«424310_j41300405518873_1_alg».proof.Proof.Gen.Pre_finite_inputs
import proofs.«424310_j41300405518873_1_alg».proof.Proof.Spec
import Idealize.ShloMosaic.Lib.ReduceAll
import Idealize.ShloMosaic.Lib.StableHlo.Predicate
import Idealize.ShloMosaic.Lib.Pipeline.Value

noncomputable section

namespace Cert.PreIdx

open Idealize.ShloMosaic Idealize.ShloMosaic.ValueIdx Idealize.SL.Sem

open Cert.Pre_finite_inputs

/-- The scalar shape has one index. -/
private instance : Subsingleton S_.Idx := ⟨fun a b => funext fun d => d.elim0⟩

/-- Row 0 of the edge index, sliced out as a `[1, 800000]` array and flattened to `[800000]`, reads at `e` the edge index
    at `(0, e)`: the flattening keeps the row-major position `0 * 800000 + e = e`, the slice starts at offset `(0, 0)`. -/
private theorem row0_read (ei : IVec S2x800000 32) (hs : S2x800000.Slices ![0, 0] S1x800000)
    (hc : S1x800000.ShapeCasts S800000) (e : Fin 800000) :
    shapeCast S800000 (extractStridedSlice S1x800000 ![0, 0] ei hs) hc (ix1 e) = ei (ix2 0 e) := by
  refine (shapeCast_apply _ hc (ix1 e) (ix2 0 e) ?_).trans ?_
  · rw [Shape.rowMajor_val_two, Shape.rowMajor_val_one]
    show 0 * 800000 + e.val = e.val
    omega
  · refine extractStridedSlice_apply _ ei hs (ix2 0 e) (ix2 0 e) fun a => ?_
    match a with
    | ⟨0, _⟩ => rfl
    | ⟨1, _⟩ =>
      show e.val = 0 + e.val
      omega

/-- Under the precondition the source node numbers lie in `[0, 50000)`. -/
theorem src_in_range (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg1)) := by
  intro e
  -- the precondition at the one scalar index, opened down to its outermost conjunction
  have h0 := congrFun (h c) ix0
  unfold Cert.Pre_finite_inputs.fn Cert.Pre_finite_inputs.fn_part1 Cert.Pre_finite_inputs.fn_part2
    Cert.Pre_finite_inputs.fn_part3 Cert.Pre_finite_inputs.fn_part4 at h0
  dsimp only at h0
  -- its last conjunct is the all-reduction of the pointwise range test; every entry of the test is 1
  have h1 := (IntOp.andi_eq_one.1 h0).2
  have h2 := Host.reduce_andi_all _ _ _ _ _ h1 (ix1 e)
  -- at entry e both signed comparisons hold
  obtain ⟨hge, hlt⟩ := IntOp.andi_eq_one.1 h2
  have hge' := IntOp.cmpi_sge.1 hge
  have hlt' := IntOp.cmpi_slt.1 hlt
  -- the compared words: the constants 0 and 50000, and row 0 of the edge index at e
  have hge'' : (0#32 : BitVec 32).toInt ≤ _ := hge'
  have hlt'' : _ < (50000#32 : BitVec 32).toInt := hlt'
  have hr := row0_read (m ((c.tc : Thread Cert.KernelIdeal.nD Cert.KernelIdeal.τ).loc Cert.KernelIdeal.main_arg1))
    Facts.slices_S2x800000_S1x800000_0_0 Facts.shapeCasts_S1x800000_S800000 e
  have z : (0#32 : BitVec 32).toInt = 0 := by decide
  have f : (50000#32 : BitVec 32).toInt = 50000 := by decide
  rw [hr] at hge'' hlt''
  rw [z] at hge''
  rw [f] at hlt''
  exact ⟨hge'', hlt''⟩

end Cert.PreIdx

end
-- ==== Proof.lean ====
/-
  The certificate of a continuous-filter convolution block on a graph (50000 nodes, 800000 edges, 128 features): the
  kernel program — a node projection, a fused edge filter network with cosine cutoff multiplied into the gathered source
  rows, and a node update, three launches tiled over rows, with the row gather and the scatter-add between them on the
  host — against the plain reference.

  Over the extended reals both programs compute one function of the thirteen argument arrays (Proof/Spec.lean): a change
  of float format is the identity, a matrix product into a zero accumulator is the host's contraction, and a tiling of
  rows changes nothing because every stage acts on a row alone. The one place the two differ as printed is the gather of
  the source rows: the kernel program's gather replaces a row whose node number is out of range by a fill value, the
  reference's clamps the number. Under the precondition every source node number is a node, so neither happens.

  Frames: generated for the two kernel programs; the reference's is its run with the result dropped. Nothing was
  rewritten by the idealization, so there is nothing to preserve. The algebraic claim joins the kernel program's run with
  its result named (Proof/RunMain.lean, Proof/KerValue.lean) and the reference's run (Proof/RefValue.lean), both ending at
  the specification's function, entry by entry.
-/
import proofs.«424310_j41300405518873_1_alg».proof.Defs
import proofs.«424310_j41300405518873_1_alg».proof.Proof.Gen.Kernel
import proofs.«424310_j41300405518873_1_alg».proof.Proof.Gen.Kernel.Skeleton
import proofs.«424310_j41300405518873_1_alg».proof.Proof.Gen.Kernel.Launch
import proofs.«424310_j41300405518873_1_alg».proof.Proof.Gen.Kernel.Points
import proofs.«424310_j41300405518873_1_alg».proof.Proof.Gen.Kernel.Frame
import proofs.«424310_j41300405518873_1_alg».proof.Proof.Gen.KernelIdeal
import proofs.«424310_j41300405518873_1_alg».proof.Proof.Gen.KernelIdeal.Skeleton
import proofs.«424310_j41300405518873_1_alg».proof.Proof.Gen.KernelIdeal.Launch
import proofs.«424310_j41300405518873_1_alg».proof.Proof.Gen.KernelIdeal.Points
import proofs.«424310_j41300405518873_1_alg».proof.Proof.Gen.KernelIdeal.Frame
import proofs.«424310_j41300405518873_1_alg».proof.Proof.Gen.ReferenceIdeal
import proofs.«424310_j41300405518873_1_alg».proof.Proof.Gen.Pre_finite_inputs
import proofs.«424310_j41300405518873_1_alg».proof.Proof.Gen.ReferenceIdeal.Run
import proofs.«424310_j41300405518873_1_alg».proof.Proof.Gen.ReferenceIdeal.Read
import proofs.«424310_j41300405518873_1_alg».proof.Proof.RunMain
import proofs.«424310_j41300405518873_1_alg».proof.Proof.KerValue
import proofs.«424310_j41300405518873_1_alg».proof.Proof.RefValue
import proofs.«424310_j41300405518873_1_alg».proof.Proof.PreIdx
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's function of the arguments in
    their result arrays, entry by entry; the precondition is used once, to know every source node number is a node. -/
theorem algebraic : Cert.algebraic_KernelIdeal_ReferenceIdeal := by
  intro m ρ m' ρ' hpre hagree
  refine ⟨fun c => Cert.KernelIdeal.Gen.W7 m ρ c (Proc.devRef .tc Cert.KernelIdeal.main_v15),
    Cert.KernelIdeal.RunMain.run_main (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12⟩ := hagree c
  have hsrc := Cert.PreIdx.src_in_range m hpre c
  rw [Cert.ReferenceIdeal.Read.val_main_v47_eq, h0, h1, h2, h3, h4, h5, h6, h7, h8, h9, h10, h11, h12]
  funext i
  obtain ⟨p, q, rfl⟩ : ∃ (p : Fin 50000) (q : Fin 128), i = ix2 p q := ⟨i 0, i 1, eq_ix2 i⟩
  exact (Cert.RefValue.ref_eq _ _ _ _ _ _ _ _ _ _ _ _ _ hsrc p q).trans
    (Cert.KernelIdeal.KerValue.ker_eq m ρ c hsrc p q).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
